-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S50000x4 : Shape := ⟨2, ![50000, 4]⟩
abbrev S2x1000000 : Shape := ⟨2, ![2, 1000000]⟩
abbrev S2x200000 : Shape := ⟨2, ![2, 200000]⟩
abbrev S9x32 : Shape := ⟨2, ![9, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S9x32 : S_.BroadcastsInDim S9x32 (![] : Fin 0 → Fin S9x32.rank)
  reducesTo_S9x32_S_d0_1 : S9x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S32x64 .f32) (main_arg7 : FVec F S64 .f32) (main_arg8 : FVec F S64x64 .f32) (main_arg9 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S1000000x3 .f32) (main_arg1 : FVec F S50000x4 .f32) (main_arg2 : IVec S2x1000000 32) (main_arg3 : IVec S2x200000 32) (main_arg4 : FVec F S9x32 .f32) (main_arg5 : FVec F S32 .f32) (main_arg6 : FVec F S32x64 .f32) (main_arg7 : FVec F S64 .f32) (main_arg8 : FVec F S64x64 .f32) (main_arg9 : FVec F S64 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S9x32 .f32 := Host.absf main_arg4
  let main_cst_2 : FVec F S_ .f32 := constant S_ .f32 0x7F800000#32
  let main_v10 : FVec F S9x32 .f32 := broadcastInDim S9x32 ![] bcast_S_S9x32 main_cst_2
  let main_v11 : IVec S9x32 1 := cmpf .olt main_v9 main_v10
  let main_c_3 : IVec S_ 1 := constantI S_ 1 1#1
  let main_v12 : IVec S_ 1 := (fun x v => Host.reduce IntOp.andi x v reducesTo_S9x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_v13 main_v16
-- ==== Kernel.lean ====
abbrev S1000000x3 : Shape := ⟨2, ![1000000, 3]⟩
abbrev S50000x4 : Shape := ⟨2, ![50000, 4]⟩
abbrev S2x1000000 : Shape := ⟨2, ![2, 1000000]⟩
abbrev S2x200000 : Shape := ⟨2, ![2, 200000]⟩
abbrev S9x32 : Shape := ⟨2, ![9, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x4 : Shape := ⟨2, ![1000000, 4]⟩
abbrev S1000000x8 : Shape := ⟨2, ![1000000, 8]⟩
abbrev S8x32 : Shape := ⟨2, ![8, 32]⟩
abbrev S1x32 : Shape := ⟨2, ![1, 32]⟩
abbrev S1000000x64 : Shape := ⟨2, ![1000000, 64]⟩
abbrev S8000x3 : Shape := ⟨2, ![8000, 3]⟩
abbrev S8000x8 : Shape := ⟨2, ![8000, 8]⟩
abbrev S8000x64 : Shape := ⟨2, ![8000, 64]⟩
abbrev S8000 : Shape := ⟨1, ![8000]⟩
abbrev S8000x1 : Shape := ⟨2, ![8000, 1]⟩
abbrev S8000x32 : Shape := ⟨2, ![8000, 32]⟩
abbrev S1x64 : Shape := ⟨2, ![1, 64]⟩
abbrev S1000000x64x1 : Shape := ⟨3, ![1000000, 64, 1]⟩
abbrev S1000000x1x3 : Shape := ⟨3, ![1000000, 1, 3]⟩
abbrev S1000000x64x3 : Shape := ⟨3, ![1000000, 64, 3]⟩
abbrev S50000x64x3 : Shape := ⟨3, ![50000, 64, 3]⟩
abbrev S50000 : Shape := ⟨1, ![50000]⟩
abbrev S50000x1x1 : Shape := ⟨3, ![50000, 1, 1]⟩
abbrev S50000x512 : Shape := ⟨2, ![50000, 512]⟩
abbrev S200x64x3 : Shape := ⟨3, ![200, 64, 3]⟩
abbrev S200x512 : Shape := ⟨2, ![200, 512]⟩
abbrev S200x8x3 : Shape := ⟨3, ![200, 8, 3]⟩
abbrev S200x64x8 : Shape := ⟨3, ![200, 64, 8]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩

abbrev nBuf : Space → Nat
  | .hbm => 85
  | .vmem => 17
  | .smem => 0
  | _ => 0

abbrev bufTy : (tb : Table) → Fin (tcTables nBuf tb) → BufTy
  | .hbm, ⟨0, _⟩ => ⟨S1000000x3, .f32⟩
  | .hbm, ⟨1, _⟩ => ⟨S50000x4, .f32⟩
  | .hbm, ⟨2, _⟩ => ⟨S2x1000000, .i32⟩
  | .hbm, ⟨3, _⟩ => ⟨S2x200000, .i32⟩
  | .hbm, ⟨4, _⟩ => ⟨S9x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x4, .f32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x4, .f32⟩
  | .hbm, ⟨32, _⟩ => ⟨S1000000x8, .f32⟩
  | .hbm, ⟨33, _⟩ => ⟨S8x32, .f32⟩
  | .hbm, ⟨34, _⟩ => ⟨S1x32, .f32⟩
  | .hbm, ⟨35, _⟩ => ⟨S32, .f32⟩
  | .hbm, ⟨36, _⟩ => ⟨S1000000x64, .f32⟩
  | .hbm, ⟨37, _⟩ => ⟨S1000000x64x1, .f32⟩
  | .hbm, ⟨38, _⟩ => ⟨S1000000x1x3, .f32⟩
  | .hbm, ⟨39, _⟩ => ⟨S1000000x64x3, .f32⟩
  | .hbm, ⟨40, _⟩ => ⟨S1000000x64x3, .f32⟩
  | .hbm, ⟨41, _⟩ => ⟨S1000000x64x3, .f32⟩
  | .hbm, ⟨42, _⟩ => ⟨S1x1000000, .i32⟩
  | .hbm, ⟨43, _⟩ => ⟨S1000000, .i32⟩
  | .hbm, ⟨44, _⟩ => ⟨S_, .f32⟩
  | .hbm, ⟨45, _⟩ => ⟨S50000x64x3, .f32⟩
  | .hbm, ⟨46, _⟩ => ⟨S1000000x1, .i32⟩
  | .hbm, ⟨47, _⟩ => ⟨S50000x64x3, .f32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S50000, .f32⟩
  | .hbm, ⟨52, _⟩ => ⟨S1000000x1, .i32⟩
  | .hbm, ⟨53, _⟩ => ⟨S50000, .f32⟩
  | .hbm, ⟨54, _⟩ => ⟨S_, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1x1, .f32⟩
  | .hbm, ⟨59, _⟩ => ⟨S50000x64x3, .f32⟩
  | .hbm, ⟨60, _⟩ => ⟨S50000x64x3, .f32⟩
  | .hbm, ⟨61, _⟩ => ⟨S50000x512, .f32⟩
  | .hbm, ⟨62, _⟩ => ⟨S1x200000, .i32⟩
  | .hbm, ⟨63, _⟩ => ⟨S200000, .i32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S200000x512, .f32⟩
  | .hbm, ⟨73, _⟩ => ⟨S1x200000, .i32⟩
  | .hbm, ⟨74, _⟩ => ⟨S200000, .i32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x512, .f32⟩
  | .hbm, ⟨84, _⟩ => ⟨S200000x512, .f32⟩
  | .local _ .vmem, ⟨0, _⟩ => ⟨S8000x3, .f32⟩
  | .local _ .vmem, ⟨1, _⟩ => ⟨S8000x3, .f32⟩
  | .local _ .vmem, ⟨2, _⟩ => ⟨S8000x8, .f32⟩
  | .local _ .vmem, ⟨3, _⟩ => ⟨S8000x8, .f32⟩
  | .local _ .vmem, ⟨4, _⟩ => ⟨S8x32, .f32⟩
  | .local _ .vmem, ⟨5, _⟩ => ⟨S32, .f32⟩
  | .local _ .vmem, ⟨6, _⟩ => ⟨S32, .f32⟩
  | .local _ .vmem, ⟨7, _⟩ => ⟨S32x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S8000x64, .f32⟩
  | .local _ .vmem, ⟨12, _⟩ => ⟨S8000x64, .f32⟩
  | .local _ .vmem, ⟨13, _⟩ => ⟨S200x64x3, .f32⟩
  | .local _ .vmem, ⟨14, _⟩ => ⟨S200x64x3, .f32⟩
  | .local _ .vmem, ⟨15, _⟩ => ⟨S200x512, .f32⟩
  | .local _ .vmem, ⟨16, _⟩ => ⟨S200x512, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x64x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x4_S1000000x4_S1000000x8_d1 : Shape.Concatenates [S1000000x4, S1000000x4] S1000000x8 1
  slices_S9x32_S8x32_1_0 : S9x32.Slices ![1, 0] S8x32
  slices_S9x32_S1x32_0_0 : S9x32.Slices ![0, 0] S1x32
  shapeCasts_S1x32_S32 : S1x32.ShapeCasts S32
  inb_S8000x3_S8000x3_0_0 : ∀ a, (![0, 0] : Fin 2 → Nat) a + S8000x3.size a ≤ S8000x3.size a
  h_S8000x3 : 0 < S8000x3.numel
  reduces_S8000x3_S8000 : S8000x3.Reduces [1] S8000
  shapeCasts_S8000_S8000x1 : S8000.ShapeCasts S8000x1
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S8000x1_S8000x32 : S8000x1.Broadcasts S8000x32
  broadcasts_S1x32_S8000x32 : S1x32.Broadcasts S8000x32
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S1000000x64_S1000000x64x1_0_1 : S1000000x64.BroadcastsInDim S1000000x64x1 (![0, 1] : Fin 2 → Fin S1000000x64x1.rank)
  bcast_S1000000x3_S1000000x1x3_0_2 : S1000000x3.BroadcastsInDim S1000000x1x3 (![0, 2] : Fin 2 → Fin S1000000x1x3.rank)
  bcast_S1000000x64x1_S1000000x64x3_0_1_2 : S1000000x64x1.BroadcastsInDim S1000000x64x3 (![0, 1, 2] : Fin 3 → Fin S1000000x64x3.rank)
  bcast_S1000000x1x3_S1000000x64x3_0_1_2 : S1000000x1x3.BroadcastsInDim S1000000x64x3 (![0, 1, 2] : Fin 3 → Fin S1000000x64x3.rank)
  bcast_S_S50000x64x3 : S_.BroadcastsInDim S50000x64x3 (![] : Fin 0 → Fin S50000x64x3.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x64x3_0_1_2 : S50000x1x1.BroadcastsInDim S50000x64x3 (![0, 1, 2] : Fin 3 → Fin S50000x64x3.rank)
  inb_S200x64x3_S200x64x3_0_0_0 : ∀ a, (![0, 0, 0] : Fin 3 → Nat) a + S200x64x3.size a ≤ S200x64x3.size a
  h_S200x64x3 : 0 < S200x64x3.numel
  shapeCasts_S200x64x3_S200x64x3 : S200x64x3.ShapeCasts S200x64x3
  slices_S200x64x3_o0_0_0_S200x8x3 : S200x64x3.Slices ![0, 0, 0] S200x8x3
  shapeCasts_S200x64x8_S200x512 : S200x64x8.ShapeCasts S200x512
  inb_S200x512_S200x512_0_0 : ∀ a, (![0, 0] : Fin 2 → Nat) a + S200x512.size a ≤ S200x512.size a
  h_S200x512 : 0 < S200x512.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  gather_S50000x4_S1000000x1_S1000000x4_1_0_n_n_0_1_14_wf : GatherDims.WF S50000x4 S1000000x1 S1000000x4 [1] [0] [] [0] [] 1 ![1, 4]
  dot_S8000x8_S8x32_S8000x32_1_0_0_1_n_n_wf : DotDims.WF S8000x8 S8x32 S8000x32 [1] [0] [0] [1] [] []
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  scatter_S50000x64x3_S1000000x1_S1000000x64x3_12_0_0_1_wf : ScatterDims.WF S50000x64x3 S1000000x1 S1000000x64x3 [1, 2] [0] [0] 1
  scatter_S50000_S1000000x1_S1000000_n_0_0_1_wf : ScatterDims.WF S50000 S1000000x1 S1000000 [] [0] [0] 1
  dot_S200x64x3_S200x8x3_S200x64x8_2_2_1_1_0_0_wf : DotDims.WF S200x64x3 S200x8x3 S200x64x8 [2] [2] [1] [1] [0] [0]
  gather_S50000x512_S200000x1_S200000x512_1_0_n_n_0_1_1512_wf : GatherDims.WF S50000x512 S200000x1 S200000x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S1000000x8.size a
  hwx0_1 : ∀ i : grid0.Coords, EltTy.bits .f32 = 32 ∨ (Rect.block (s := S1000000x8) S8000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1000000x64.size a
  hwx0_9 : ∀ i : grid0.Coords, EltTy.bits .f32 = 32 ∨ (Rect.block (s := S1000000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x64x3.size a ≤ S50000x64x3.size a
  hwx1_0 : ∀ i : grid1.Coords, EltTy.bits .f32 = 32 ∨ (Rect.block (s := S50000x64x3) S200x64x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x512.size a ≤ S50000x512.size a
  hwx1_1 : ∀ i : grid1.Coords, EltTy.bits .f32 = 32 ∨ (Rect.block (s := S50000x512) S200x512.size (cc1_transform_1 i) (hinb1_1 i)).WholeWords (EltTy.packing .f32)

variable [Facts₀]

def gather_S50000x4_S1000000x1_S1000000x4_1_0_n_n_0_1_14 : GatherDims S50000x4 S1000000x1 S1000000x4 where
  offsetDims := [1]
  collapsedSliceDims := [0]
  operandBatchingDims := []
  startIndicesBatchingDims := []
  startIndexMap := [0]
  indexVectorDim := 1
  sliceSizes := ![1, 4]
  wf := gather_S50000x4_S1000000x1_S1000000x4_1_0_n_n_0_1_14_wf
def dot_S8000x8_S8x32_S8000x32_1_0_0_1_n_n : DotDims S8000x8 S8x32 S8000x32 where
  lhsContracting := [1]
  rhsContracting := [0]
  lhsNonContracting := [0]
  rhsNonContracting := [1]
  lhsBatch := []
  rhsBatch := []
  wf := dot_S8000x8_S8x32_S8000x32_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64x3_S1000000x1_S1000000x64x3_12_0_0_1 : ScatterDims S50000x64x3 S1000000x1 S1000000x64x3 where
  updateWindowDims := [1, 2]
  insertedWindowDims := [0]
  scatterDimsToOperandDims := [0]
  indexVectorDim := 1
  wf := scatter_S50000x64x3_S1000000x1_S1000000x64x3_12_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S200x64x3_S200x8x3_S200x64x8_2_2_1_1_0_0 : DotDims S200x64x3 S200x8x3 S200x64x8 where
  lhsContracting := [2]
  rhsContracting := [2]
  lhsNonContracting := [1]
  rhsNonContracting := [1]
  lhsBatch := [0]
  rhsBatch := [0]
  wf := dot_S200x64x3_S200x8x3_S200x64x8_2_2_1_1_0_0_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v40) S200x64x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S200x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1000000x3 : Shape := ⟨2, ![1000000, 3]⟩
abbrev S50000x4 : Shape := ⟨2, ![50000, 4]⟩
abbrev S2x1000000 : Shape := ⟨2, ![2, 1000000]⟩
abbrev S2x200000 : Shape := ⟨2, ![2, 200000]⟩
abbrev S9x32 : Shape := ⟨2, ![9, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1000000 : Shape := ⟨1, ![1000000]⟩
abbrev S1000000x1 : Shape := ⟨2, ![1000000, 1]⟩
abbrev S1000000x2 : Shape := ⟨2, ![1000000, 2]⟩
abbrev S2000000 : Shape := ⟨1, ![2000000]⟩
abbrev S2000000x1 : Shape := ⟨2, ![2000000, 1]⟩
abbrev S2000000x4 : Shape := ⟨2, ![2000000, 4]⟩
abbrev S1000000x8 : Shape := ⟨2, ![1000000, 8]⟩
abbrev S1000000x9 : Shape := ⟨2, ![1000000, 9]⟩
abbrev S1000000x32 : Shape := ⟨2, ![1000000, 32]⟩
abbrev S1x32 : Shape := ⟨2, ![1, 32]⟩
abbrev S1000000x64 : Shape := ⟨2, ![1000000, 64]⟩
abbrev S1x64 : Shape := ⟨2, ![1, 64]⟩
abbrev S1000000x64x1 : Shape := ⟨3, ![1000000, 64, 1]⟩
abbrev S1000000x1x3 : Shape := ⟨3, ![1000000, 1, 3]⟩
abbrev S1000000x64x3 : Shape := ⟨3, ![1000000, 64, 3]⟩
abbrev S1x1000000 : Shape := ⟨2, ![1, 1000000]⟩
abbrev S50000x64x3 : Shape := ⟨3, ![50000, 64, 3]⟩
abbrev S50000 : Shape := ⟨1, ![50000]⟩
abbrev S50000x1x1 : Shape := ⟨3, ![50000, 1, 1]⟩
abbrev S50000x64x64 : Shape := ⟨3, ![50000, 64, 64]⟩
abbrev S50000x64x8 : Shape := ⟨3, ![50000, 64, 8]⟩
abbrev S50000x512 : Shape := ⟨2, ![50000, 512]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩

abbrev nBuf : Space → Nat
  | .hbm => 133
  | .vmem => 0
  | .smem => 0
  | _ => 0

abbrev hbmTy0_0 (i : Nat) : BufTy := match i % 128 with
  | 0 => ⟨S1000000x3, .f32⟩
  | 1 => ⟨S50000x4, .f32⟩
  | 2 => ⟨S2x1000000, .i32⟩
  | 3 => ⟨S2x200000, .i32⟩
  | 4 => ⟨S9x32, .f32⟩
  | 5 => ⟨S32, .f32⟩
  | 6 => ⟨S32x64, .f32⟩
  | 7 => ⟨S64, .f32⟩
  | 8 => ⟨S64x64, .f32⟩
  | 9 => ⟨S64, .f32⟩
  | 10 => ⟨S1000000x3, .f32⟩
  | 11 => ⟨S_, .f32⟩
  | 12 => ⟨S1000000, .f32⟩
  | 13 => ⟨S1000000x1, .f32⟩
  | 14 => ⟨S1000000x1, .f32⟩
  | 15 => ⟨S_, .f32⟩
  | 16 => ⟨S1000000x1, .f32⟩
  | 17 => ⟨S1000000x1, .f32⟩
  | 18 => ⟨S_, .f32⟩
  | 19 => ⟨S1000000x1, .f32⟩
  | 20 => ⟨S1000000x1, .f32⟩
  | 21 => ⟨S_, .f32⟩
  | 22 => ⟨S1000000x1, .f32⟩
  | 23 => ⟨S1000000x1, .f32⟩
  | 24 => ⟨S1000000x1, .f32⟩
  | 25 => ⟨S1000000x1, .f32⟩
  | 26 => ⟨S_, .f32⟩
  | 27 => ⟨S1000000x1, .f32⟩
  | 28 => ⟨S1000000x1, .f32⟩
  | 29 => ⟨S_, .f32⟩
  | 30 => ⟨S1000000x1, .f32⟩
  | 31 => ⟨S1000000x1, .f32⟩
  | 32 => ⟨S1000000x1, .f32⟩
  | 33 => ⟨S_, .f32⟩
  | 34 => ⟨S1000000x1, .f32⟩
  | 35 => ⟨S1000000x1, .f32⟩
  | 36 => ⟨S1000000x1, .f32⟩
  | 37 => ⟨S_, .f32⟩
  | 38 => ⟨S1000000x1, .f32⟩
  | 39 => ⟨S1000000x1, .f32⟩
  | 40 => ⟨S1000000x1, .f32⟩
  | 41 => ⟨S_, .f32⟩
  | 42 => ⟨S1000000x1, .f32⟩
  | 43 => ⟨S1000000x1, .i1⟩
  | 44 => ⟨S_, .f32⟩
  | 45 => ⟨S1000000x1, .f32⟩
  | 46 => ⟨S1000000x1, .f32⟩
  | 47 => ⟨S_, .f32⟩
  | 48 => ⟨S1000000x1, .f32⟩
  | 49 => ⟨S1000000x1, .i1⟩
  | 50 => ⟨S_, .f32⟩
  | 51 => ⟨S1000000x1, .f32⟩
  | 52 => ⟨S1000000x1, .f32⟩
  | 53 => ⟨S1000000x1, .f32⟩
  | 54 => ⟨S1000000x2, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x4, .f32⟩
  | 65 => ⟨S1000000x8, .f32⟩
  | 66 => ⟨S1000000x9, .f32⟩
  | 67 => ⟨S1000000x32, .f32⟩
  | 68 => ⟨S1x32, .f32⟩
  | 69 => ⟨S1000000x32, .f32⟩
  | 70 => ⟨S1000000x32, .f32⟩
  | 71 => ⟨S1000000x32, .f32⟩
  | 72 => ⟨S1000000x64, .f32⟩
  | 73 => ⟨S1x64, .f32⟩
  | 74 => ⟨S1000000x64, .f32⟩
  | 75 => ⟨S1000000x64, .f32⟩
  | 76 => ⟨S1000000x64, .f32⟩
  | 77 => ⟨S1000000x64, .f32⟩
  | 78 => ⟨S1x64, .f32⟩
  | 79 => ⟨S1000000x64, .f32⟩
  | 80 => ⟨S1000000x64, .f32⟩
  | 81 => ⟨S1000000x64, .f32⟩
  | 82 => ⟨S1000000x64, .f32⟩
  | 83 => ⟨S1000000x64x1, .f32⟩
  | 84 => ⟨S1000000x1x3, .f32⟩
  | 85 => ⟨S1000000x64x3, .f32⟩
  | 86 => ⟨S1000000x64x3, .f32⟩
  | 87 => ⟨S1000000x64x3, .f32⟩
  | 88 => ⟨S1x1000000, .i32⟩
  | 89 => ⟨S1000000, .i32⟩
  | 90 => ⟨S_, .f32⟩
  | 91 => ⟨S50000x64x3, .f32⟩
  | 92 => ⟨S1000000x1, .i32⟩
  | 93 => ⟨S50000x64x3, .f32⟩
  | 94 => ⟨S_, .f32⟩
  | 95 => ⟨S1000000, .f32⟩
  | 96 => ⟨S_, .f32⟩
  | 97 => ⟨S50000, .f32⟩
  | 98 => ⟨S1000000x1, .i32⟩
  | 99 => ⟨S50000, .f32⟩
  | 100 => ⟨S_, .f32⟩
  | 101 => ⟨S_, .f32⟩
  | 102 => ⟨S50000, .f32⟩
  | 103 => ⟨S50000, .f32⟩
  | 104 => ⟨S50000x1x1, .f32⟩
  | 105 => ⟨S50000x64x3, .f32⟩
  | 106 => ⟨S50000x64x3, .f32⟩
  | 107 => ⟨S50000x64x64, .f32⟩
  | 108 => ⟨S50000x64x8, .f32⟩
  | 109 => ⟨S50000x512, .f32⟩
  | 110 => ⟨S1x200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x512, .f32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S1000000x3, .f32⟩

abbrev hbmTy0_1 (i : Nat) : BufTy := match i % 128 with
  | 0 => ⟨S200000, .i32⟩
  | 1 => ⟨S200000, .i32⟩
  | 2 => ⟨S200000x1, .i32⟩
  | 3 => ⟨S200000x512, .f32⟩
  | 4 => ⟨S200000x512, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_c_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_call3_v0 : Ref sig .tc := ⟨.hbm, 101, rfl⟩
abbrev main_call3_v1 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  reducesTo_S1000000x3_S1000000_d1 : S1000000x3.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  transposes_S2x1000000_S1000000x2_1_0 : S2x1000000.Transposes [1, 0] S1000000x2
  shapeCasts_S1000000x2_S2000000 : S1000000x2.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x4_S1000000x8 : S2000000x4.ShapeCasts S1000000x8
  concatenates_S1000000x1_S1000000x8_S1000000x9_d1 : Shape.Concatenates [S1000000x1, S1000000x8] S1000000x9 1
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000x64_S1000000x64x1_0_1 : S1000000x64.BroadcastsInDim S1000000x64x1 (![0, 1] : Fin 2 → Fin S1000000x64x1.rank)
  bcast_S1000000x3_S1000000x1x3_0_2 : S1000000x3.BroadcastsInDim S1000000x1x3 (![0, 2] : Fin 2 → Fin S1000000x1x3.rank)
  bcast_S1000000x64x1_S1000000x64x3_0_1_2 : S1000000x64x1.BroadcastsInDim S1000000x64x3 (![0, 1, 2] : Fin 3 → Fin S1000000x64x3.rank)
  bcast_S1000000x1x3_S1000000x64x3_0_1_2 : S1000000x1x3.BroadcastsInDim S1000000x64x3 (![0, 1, 2] : Fin 3 → Fin S1000000x64x3.rank)
  slices_S2x1000000_S1x1000000_1_0 : S2x1000000.Slices ![1, 0] S1x1000000
  shapeCasts_S1x1000000_S1000000 : S1x1000000.ShapeCasts S1000000
  bcast_S_S50000x64x3 : S_.BroadcastsInDim S50000x64x3 (![] : Fin 0 → Fin S50000x64x3.rank)
  bcast_S_S1000000 : S_.BroadcastsInDim S1000000 (![] : Fin 0 → Fin S1000000.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x64x3_0_1_2 : S50000x1x1.BroadcastsInDim S50000x64x3 (![0, 1, 2] : Fin 3 → Fin S50000x64x3.rank)
  slices_S50000x64x64_S50000x64x8_0_0_0 : S50000x64x64.Slices ![0, 0, 0] S50000x64x8
  shapeCasts_S50000x64x8_S50000x512 : S50000x64x8.ShapeCasts S50000x512
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  gather_S50000x4_S2000000x1_S2000000x4_1_0_n_n_0_1_14_wf : GatherDims.WF S50000x4 S2000000x1 S2000000x4 [1] [0] [] [0] [] 1 ![1, 4]
  dot_S1000000x9_S9x32_S1000000x32_1_0_0_1_n_n_wf : DotDims.WF S1000000x9 S9x32 S1000000x32 [1] [0] [0] [1] [] []
  dot_S1000000x32_S32x64_S1000000x64_1_0_0_1_n_n_wf : DotDims.WF S1000000x32 S32x64 S1000000x64 [1] [0] [0] [1] [] []
  dot_S1000000x64_S64x64_S1000000x64_1_0_0_1_n_n_wf : DotDims.WF S1000000x64 S64x64 S1000000x64 [1] [0] [0] [1] [] []
  scatter_S50000x64x3_S1000000x1_S1000000x64x3_12_0_0_1_wf : ScatterDims.WF S50000x64x3 S1000000x1 S1000000x64x3 [1, 2] [0] [0] 1
  scatter_S50000_S1000000x1_S1000000_n_0_0_1_wf : ScatterDims.WF S50000 S1000000x1 S1000000 [] [0] [0] 1
  dot_S50000x64x3_S50000x64x3_S50000x64x64_2_2_1_1_0_0_wf : DotDims.WF S50000x64x3 S50000x64x3 S50000x64x64 [2] [2] [1] [1] [0] [0]
  gather_S50000x512_S200000x1_S200000x512_1_0_n_n_0_1_1512_wf : GatherDims.WF S50000x512 S200000x1 S200000x512 [1] [0] [] [0] [] 1 ![1, 512]

variable [Facts₀]

def gather_S50000x4_S2000000x1_S2000000x4_1_0_n_n_0_1_14 : GatherDims S50000x4 S2000000x1 S2000000x4 where
  offsetDims := [1]
  collapsedSliceDims := [0]
  operandBatchingDims := []
  startIndicesBatchingDims := []
  startIndexMap := [0]
  indexVectorDim := 1
  sliceSizes := ![1, 4]
  wf := gather_S50000x4_S2000000x1_S2000000x4_1_0_n_n_0_1_14_wf
def dot_S1000000x9_S9x32_S1000000x32_1_0_0_1_n_n : DotDims S1000000x9 S9x32 S1000000x32 where
  lhsContracting := [1]
  rhsContracting := [0]
  lhsNonContracting := [0]
  rhsNonContracting := [1]
  lhsBatch := []
  rhsBatch := []
  wf := dot_S1000000x9_S9x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64x3_S1000000x1_S1000000x64x3_12_0_0_1 : ScatterDims S50000x64x3 S1000000x1 S1000000x64x3 where
  updateWindowDims := [1, 2]
  insertedWindowDims := [0]
  scatterDimsToOperandDims := [0]
  indexVectorDim := 1
  wf := scatter_S50000x64x3_S1000000x1_S1000000x64x3_12_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64x3_S50000x64x3_S50000x64x64_2_2_1_1_0_0 : DotDims S50000x64x3 S50000x64x3 S50000x64x64 where
  lhsContracting := [2]
  rhsContracting := [2]
  lhsNonContracting := [1]
  rhsNonContracting := [1]
  lhsBatch := [0]
  rhsBatch := [0]
  wf := dot_S50000x64x3_S50000x64x3_S50000x64x64_2_2_1_1_0_0_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf

class Facts : Prop extends Facts₀ where

variable [Facts]
-- ==== Proof.HostTerms.lean ====
/-
  The host-side arrays the first kernel region is entered with, as functions of the argument arrays.

  The attribute array has one row per edge: the four attributes of the edge's source node followed by the four of its
  target node. Row `r` of the edge-index table (`r = 0` the sources, `r = 1` the targets) is read as a column of start
  indices, a negative index wrapped once by the number of nodes, and the node-attribute table is gathered at them.
  The first weight matrix is split into its first row, which multiplies the radial weight, and its other eight rows,
  which multiply the attributes.

  Between the two regions the edges' feature rows are spread over the three coordinates of each edge's direction vector,
  summed into the edge's target node, and divided by the node's number of incoming edges (at least one): the node's
  64×3 aggregate. After the second region each listed pair of nodes gets the sum of its two nodes' descriptor rows.
-/
import proofs.«421568_j9552007266521_3_alg».proof.Proof.Gen.KernelIdeal

noncomputable section

namespace Cert.KernelIdeal.Results

open Cert.KernelIdeal Cert.KernelIdeal.Facts₀ Cert.KernelIdeal.Facts Idealize.ShloMosaic

variable {F : FTy → Type} [FloatOps F]

/-- The source nodes' row of the edge-index table as a column of start indices, negative indices wrapped. -/
def starts0 (x2 : (⟨S2x1000000, .i32⟩ : BufTy).Contents (Elt F)) : (⟨S1000000x1, .i32⟩ : BufTy).Contents (Elt F) :=
  broadcastInDim S1000000x1 ![0] bcast_S1000000_S1000000x1_0
    (select
      (cmpi .slt (shapeCast S1000000 (extractStridedSlice S1x1000000 ![0, 0] x2 slices_S2x1000000_S1x1000000_0_0) shapeCasts_S1x1000000_S1000000)
        (broadcastInDim S1000000 ![] bcast_S_S1000000 (constantI S_ 32 0#32)))
      (addi (shapeCast S1000000 (extractStridedSlice S1x1000000 ![0, 0] x2 slices_S2x1000000_S1x1000000_0_0) shapeCasts_S1x1000000_S1000000)
        (broadcastInDim S1000000 ![] bcast_S_S1000000 (constantI S_ 32 50000#32)))
      (shapeCast S1000000 (extractStridedSlice S1x1000000 ![0, 0] x2 slices_S2x1000000_S1x1000000_0_0) shapeCasts_S1x1000000_S1000000))

/-- The target nodes' row of the edge-index table as a column of start indices, negative indices wrapped. -/
def starts1 (x2 : (⟨S2x1000000, .i32⟩ : BufTy).Contents (Elt F)) : (⟨S1000000x1, .i32⟩ : BufTy).Contents (Elt F) :=
  broadcastInDim S1000000x1 ![0] bcast_S1000000_S1000000x1_0
    (select
      (cmpi .slt (shapeCast S1000000 (extractStridedSlice S1x1000000 ![1, 0] x2 slices_S2x1000000_S1x1000000_1_0) shapeCasts_S1x1000000_S1000000)
        (broadcastInDim S1000000 ![] bcast_S_S1000000 (constantI S_ 32 0#32)))
      (addi (shapeCast S1000000 (extractStridedSlice S1x1000000 ![1, 0] x2 slices_S2x1000000_S1x1000000_1_0) shapeCasts_S1x1000000_S1000000)
        (broadcastInDim S1000000 ![] bcast_S_S1000000 (constantI S_ 32 50000#32)))
      (shapeCast S1000000 (extractStridedSlice S1x1000000 ![1, 0] x2 slices_S2x1000000_S1x1000000_1_0) shapeCasts_S1x1000000_S1000000))

/-- The attribute array: per edge, its source node's four attributes then its target node's four. -/
def attrK (x1 : (⟨S50000x4, .f32⟩ : BufTy).Contents (Elt F)) (x2 : (⟨S2x1000000, .i32⟩ : BufTy).Contents (Elt F)) :
    (⟨S1000000x8, .f32⟩ : BufTy).Contents (Elt F) :=
  concatenate S1000000x8 1
    [⟨S1000000x4, Host.gather gather_S50000x4_S1000000x1_S1000000x4_1_0_n_n_0_1_14 x1 (starts0 x2)⟩,
     ⟨S1000000x4, Host.gather gather_S50000x4_S1000000x1_S1000000x4_1_0_n_n_0_1_14 x1 (starts1 x2)⟩]
    concatenates_S1000000x4_S1000000x4_S1000000x8_d1

/-- Rows 1 to 8 of the first weight matrix: the attributes' weights. -/
def w1aK (x4 : (⟨S9x32, .f32⟩ : BufTy).Contents (Elt F)) : (⟨S8x32, .f32⟩ : BufTy).Contents (Elt F) :=
  extractStridedSlice S8x32 ![1, 0] x4 slices_S9x32_S8x32_1_0

/-- Row 0 of the first weight matrix: the radial weight's weights. -/
def w1sK (x4 : (⟨S9x32, .f32⟩ : BufTy).Contents (Elt F)) : (⟨S32, .f32⟩ : BufTy).Contents (Elt F) :=
  shapeCast S32 (extractStridedSlice S1x32 ![0, 0] x4 slices_S9x32_S1x32_0_0) shapeCasts_S1x32_S32

/-- The target nodes' row of the edge-index table as a column of scatter indices (read as it stands). -/
def targets (x2 : (⟨S2x1000000, .i32⟩ : BufTy).Contents (Elt F)) : (⟨S1000000x1, .i32⟩ : BufTy).Contents (Elt F) :=
  broadcastInDim S1000000x1 ![0] bcast_S1000000_S1000000x1_0
    (shapeCast S1000000 (extractStridedSlice S1x1000000 ![1, 0] x2 slices_S2x1000000_S1x1000000_1_0) shapeCasts_S1x1000000_S1000000)

/-- The nodes' aggregates: every edge's feature row times its direction vector, summed into the edge's target node,
    over the node's count of incoming edges or one. -/
def aggrK (h : (⟨S1000000x64, .f32⟩ : BufTy).Contents (Elt F)) (x0 : (⟨S1000000x3, .f32⟩ : BufTy).Contents (Elt F))
    (x2 : (⟨S2x1000000, .i32⟩ : BufTy).Contents (Elt F)) : (⟨S50000x64x3, .f32⟩ : BufTy).Contents (Elt F) :=
  Host.divf
    (Host.scatterAdd scatter_S50000x64x3_S1000000x1_S1000000x64x3_12_0_0_1
      (broadcastInDim S50000x64x3 ![] bcast_S_S50000x64x3 (constant S_ .f32 0x00000000#32))
      (targets x2)
      (mulf
        (broadcastInDim S1000000x64x3 ![0, 1, 2] bcast_S1000000x64x1_S1000000x64x3_0_1_2
          (broadcastInDim S1000000x64x1 ![0, 1] bcast_S1000000x64_S1000000x64x1_0_1 h))
        (broadcastInDim S1000000x64x3 ![0, 1, 2] bcast_S1000000x1x3_S1000000x64x3_0_1_2
          (broadcastInDim S1000000x1x3 ![0, 2] bcast_S1000000x3_S1000000x1x3_0_2 x0))))
    (broadcastInDim S50000x64x3 ![0, 1, 2] bcast_S50000x1x1_S50000x64x3_0_1_2
      (broadcastInDim S50000x1x1 ![0] bcast_S50000_S50000x1x1_0
        (maximumf (broadcastInDim S50000 ![] bcast_S_S50000 (constant S_ .f32 0x3F800000#32))
          (Host.scatterAdd scatter_S50000_S1000000x1_S1000000_n_0_0_1
            (broadcastInDim S50000 ![] bcast_S_S50000 (constant S_ .f32 0x00000000#32))
            (targets x2)
            (broadcastInDim S1000000 ![] bcast_S_S1000000 (constant S_ .f32 0x3F800000#32))))))

/-- Row `0` of the node-pair table as a column of start indices, negative indices wrapped. -/
def pair0 (x3 : (⟨S2x200000, .i32⟩ : BufTy).Contents (Elt F)) : (⟨S200000x1, .i32⟩ : BufTy).Contents (Elt F) :=
  broadcastInDim S200000x1 ![0] bcast_S200000_S200000x1_0
    (select
      (cmpi .slt (shapeCast S200000 (extractStridedSlice S1x200000 ![0, 0] x3 slices_S2x200000_S1x200000_0_0) shapeCasts_S1x200000_S200000)
        (broadcastInDim S200000 ![] bcast_S_S200000 (constantI S_ 32 0#32)))
      (addi (shapeCast S200000 (extractStridedSlice S1x200000 ![0, 0] x3 slices_S2x200000_S1x200000_0_0) shapeCasts_S1x200000_S200000)
        (broadcastInDim S200000 ![] bcast_S_S200000 (constantI S_ 32 50000#32)))
      (shapeCast S200000 (extractStridedSlice S1x200000 ![0, 0] x3 slices_S2x200000_S1x200000_0_0) shapeCasts_S1x200000_S200000))

/-- Row `1` of the node-pair table as a column of start indices, negative indices wrapped. -/
def pair1 (x3 : (⟨S2x200000, .i32⟩ : BufTy).Contents (Elt F)) : (⟨S200000x1, .i32⟩ : BufTy).Contents (Elt F) :=
  broadcastInDim S200000x1 ![0] bcast_S200000_S200000x1_0
    (select
      (cmpi .slt (shapeCast S200000 (extractStridedSlice S1x200000 ![1, 0] x3 slices_S2x200000_S1x200000_1_0) shapeCasts_S1x200000_S200000)
        (broadcastInDim S200000 ![] bcast_S_S200000 (constantI S_ 32 0#32)))
      (addi (shapeCast S200000 (extractStridedSlice S1x200000 ![1, 0] x3 slices_S2x200000_S1x200000_1_0) shapeCasts_S1x200000_S200000)
        (broadcastInDim S200000 ![] bcast_S_S200000 (constantI S_ 32 50000#32)))
      (shapeCast S200000 (extractStridedSlice S1x200000 ![1, 0] x3 slices_S2x200000_S1x200000_1_0) shapeCasts_S1x200000_S200000))

/-- The pairs' descriptors: the sum of the two listed nodes' descriptor rows. -/
def edgeK (nd : (⟨S50000x512, .f32⟩ : BufTy).Contents (Elt F)) (x3 : (⟨S2x200000, .i32⟩ : BufTy).Contents (Elt F)) :
    (⟨S200000x512, .f32⟩ : BufTy).Contents (Elt F) :=
  addf (Host.gather gather_S50000x512_S200000x1_S200000x512_1_0_n_n_0_1_1512 nd (pair0 x3))
    (Host.gather gather_S50000x512_S200000x1_S200000x512_1_0_n_n_0_1_1512 nd (pair1 x3))

end Cert.KernelIdeal.Results

end
-- ==== Proof.Boundary.lean ====
/-
  What the buffers hold at the boundaries between the segments of the kernel program's run, read at the buffers the two
  regions and the last host stretch take their operands from: the launch memory folded through the host stretches and the
  two regions' write-backs. An argument array is written by nothing, so it is as launched at every boundary; each
  region's operand made by a host stretch is that stretch's function of the arrays before it; a region's output array
  is what its grid points' write-backs leave.
-/
import proofs.«421568_j9552007266521_3_alg».proof.Proof.KernelRun
import proofs.«421568_j9552007266521_3_alg».proof.Proof.HostTerms
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry -/

/-- The first stretch of host operations writes no argument: `main_arg0` is as launched when region 0 is entered. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg1` is as launched when region 0 is entered. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg2` is as launched when region 0 is entered. -/
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg3` is as launched when region 0 is entered. -/
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg5` is as launched when region 0 is entered. -/
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg6` is as launched when region 0 is entered. -/
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg7` is as launched when region 0 is entered. -/
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg8` is as launched when region 0 is entered. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first stretch of host operations writes no argument: `main_arg9` is as launched when region 0 is entered. -/
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

set_option maxHeartbeats 4000000 in
/-- The attribute array region 0 reads is the two gathers of the node attributes, side by side. -/
theorem W1_main_v18 (c : Dev nD) : W1 m ρ c (Proc.devRef .tc main_v18)
    = attrK (m ((c : Thread nD τ).loc main_arg1)) (m ((c : Thread nD τ).loc main_arg2)) := by
  show StableHlo.after hostOps0 (W0 m ρ c) (Proc.devRef .tc main_v18) = _
  after_results
  rfl

set_option maxHeartbeats 4000000 in
/-- The attributes' weights region 0 reads: rows 1 to 8 of the first weight matrix. -/
theorem W1_main_v19 (c : Dev nD) : W1 m ρ c (Proc.devRef .tc main_v19) = w1aK (m ((c : Thread nD τ).loc main_arg4)) := by
  show StableHlo.after hostOps0 (W0 m ρ c) (Proc.devRef .tc main_v19) = _
  after_results
  try rfl

set_option maxHeartbeats 4000000 in
/-- The radial weight's weights region 0 reads: row 0 of the first weight matrix. -/
theorem W1_main_v21 (c : Dev nD) : W1 m ρ c (Proc.devRef .tc main_v21) = w1sK (m ((c : Thread nD τ).loc main_arg4)) := by
  show StableHlo.after hostOps0 (W0 m ρ c) (Proc.devRef .tc main_v21) = _
  after_results
  try rfl

/-! ## Region 0's exit and region 1's entry -/

/-- Region 0's output array at its exit is what its write-backs leave. -/
theorem W2_main_v22 (c : Dev nD) : W2 m ρ c (Proc.devRef .tc main_v22) = (dat0 (V1 m ρ) c).arrAt 9 cfg0.N :=
  W2_arr m ρ c 9

/-- The direction vectors, an input window of region 0, are as launched at its exit. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)

/-- The edge-index table, which region 0 does not touch, is as launched at its exit. -/
theorem W2_main_arg2 (c : Dev nD) : W2 m ρ c (Proc.devRef .tc main_arg2) = m ((c : Thread nD τ).loc main_arg2) :=
  (W2_of_ne m ρ c main_arg2 (by decide)).trans (W1_main_arg2 m ρ c)

set_option maxHeartbeats 8000000 in
/-- The aggregate array region 1 reads is the scatter-mean of region 0's output array. -/
theorem W5_main_v40 (c : Dev nD) : W5 m ρ c (Proc.devRef .tc main_v40)
    = aggrK ((dat0 (V1 m ρ) c).arrAt 9 cfg0.N) (m ((c : Thread nD τ).loc main_arg0)) (m ((c : Thread nD τ).loc main_arg2)) := by
  rw [← W2_main_v22 m ρ c, ← W2_main_arg0 m ρ c, ← W2_main_arg2 m ρ c]
  show StableHlo.after hostOps1_2 (StableHlo.after hostOps1_1 (StableHlo.after hostOps1 (W2 m ρ c))) (Proc.devRef .tc main_v40) = _
  after_results
  rfl

/-! ## Region 1's exit and the return -/

/-- Region 1's output array at its exit is what its write-backs leave. -/
theorem W6_main_v41 (c : Dev nD) : W6 m ρ c (Proc.devRef .tc main_v41) = (dat1 (V5 m ρ) c).arrAt 1 cfg1.N :=
  W6_arr m ρ c 1

/-- The node-pair table is as launched at region 1's exit: the last host stretch does not write it, and it ends as
    launched. -/
theorem W6_main_arg3 (c : Dev nD) : W6 m ρ c (Proc.devRef .tc main_arg3) = m ((c : Thread nD τ).loc main_arg3) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W7_main_arg3 m ρ c)

/-- The first result, the nodes' descriptor array, is region 1's output array: the last host stretch does not write it. -/
theorem W7_main_v41 (c : Dev nD) : W7 m ρ c (Proc.devRef .tc main_v41) = (dat1 (V5 m ρ) c).arrAt 1 cfg1.N :=
  (StableHlo.after_of_forall_not_mem (b := Proc.devRef .tc main_v41) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_main_v41 m ρ c)

set_option maxHeartbeats 8000000 in
/-- The second result, the pairs' descriptor array, is the pair sums over region 1's output array. -/
theorem W7_main_v60 (c : Dev nD) : W7 m ρ c (Proc.devRef .tc main_v60)
    = edgeK ((dat1 (V5 m ρ) c).arrAt 1 cfg1.N) (m ((c : Thread nD τ).loc main_arg3)) := by
  rw [← W6_main_v41 m ρ c, ← W6_main_arg3 m ρ c]
  show StableHlo.after hostOps2 (W6 m ρ c) (Proc.devRef .tc main_v60) = _
  after_results
  rfl

end Cert.KernelIdeal.Results

end
-- ==== Proof.RowSpec.lean ====
/-
  The mathematics both programs compute, one row at a time, on the extended reals.

  An edge with direction vector `v` (three coordinates) has length `r = √(v·v)`; its radial weight is the smooth cutoff
  `smooth r`: `1/r` below 3, zero from 6 on, and between them `(1/r)·(x³·(10 + x·(−15 + 6x)) + 1)` with
  `x = (r − 6)/(−3)`. The edge's feature row is the three-layer network `mlpRow`: the first layer is
  `tanh (s·w₀ + a·W₁ + b₁)` of the weight `s` and the eight attribute entries `a`, the second `tanh (h₁·W₂ + b₂)`, and the
  result `tanh (h₂·W₃ + b₃) + h₂`, the second layer added back. A node's descriptor row is `gram`: the inner products of
  the rows of its 64×3 aggregate with its first eight rows, laid out row-major.

  The float literals are kept as the words the programs print; both programs print the same words.
-/
import Idealize.ShloMosaic.PureOps.Ideal

noncomputable section

namespace Cert.Spec

open Idealize.ShloMosaic

/-- The length of a vector of three coordinates. -/
def rOf (v : Fin 3 → EReal) : EReal := Ideal.sqrt (∑ k, v k * v k)

/-- The taper between the two radii, `(1/r)·(x·(x·x)·(10 + x·(−15 + 6·x)) + 1)` at `x = (r − 6)/(−3)`. -/
def taper (r : EReal) : EReal :=
  Ideal.div (Ideal.ofBits .f32 0x3F800000#32) r *
    (Ideal.div (r - Ideal.ofBits .f32 0x40C00000#32) (Ideal.ofBits .f32 0xC0400000#32) *
        (Ideal.div (r - Ideal.ofBits .f32 0x40C00000#32) (Ideal.ofBits .f32 0xC0400000#32) *
          Ideal.div (r - Ideal.ofBits .f32 0x40C00000#32) (Ideal.ofBits .f32 0xC0400000#32)) *
      (Ideal.ofBits .f32 0x41200000#32 +
        Ideal.div (r - Ideal.ofBits .f32 0x40C00000#32) (Ideal.ofBits .f32 0xC0400000#32) *
          (Ideal.ofBits .f32 0xC1700000#32 +
            Ideal.ofBits .f32 0x40C00000#32 * Ideal.div (r - Ideal.ofBits .f32 0x40C00000#32) (Ideal.ofBits .f32 0xC0400000#32))) +
      Ideal.ofBits .f32 0x3F800000#32)

/-- The smooth cutoff of a length: `1/r` below the inner radius 3, the taper below the outer radius 6, zero beyond. -/
def smooth (r : EReal) : EReal :=
  Scalar.select (Ideal.cmp .olt r (Ideal.ofBits .f32 0x40400000#32)) (Ideal.div (Ideal.ofBits .f32 0x3F800000#32) r)
    (Scalar.select (Ideal.cmp .olt r (Ideal.ofBits .f32 0x40C00000#32)) (taper r) (Ideal.ofBits .f32 0x00000000#32))

/-- One dense layer on a row: `tanh (h·W + b)` at output coordinate `j`. -/
def layer {k n : Nat} (h : Fin k → EReal) (W : Fin k → Fin n → EReal) (b : Fin n → EReal) (j : Fin n) : EReal :=
  Ideal.tanh ((∑ i, h i * W i j) + b j)

/-- The first layer: the radial weight `s` enters through the row `w₀`, the attributes `a` through the matrix `W₁`. -/
def first (s : EReal) (a : Fin 8 → EReal) (w0 : Fin 32 → EReal) (W1 : Fin 8 → Fin 32 → EReal) (b1 : Fin 32 → EReal)
    (j : Fin 32) : EReal :=
  Ideal.tanh ((s * w0 j + ∑ i, a i * W1 i j) + b1 j)

/-- The edge's feature row: three layers, the second added back to the third. -/
def mlpRow (s : EReal) (a : Fin 8 → EReal) (w0 : Fin 32 → EReal) (W1 : Fin 8 → Fin 32 → EReal) (b1 : Fin 32 → EReal)
    (W2 : Fin 32 → Fin 64 → EReal) (b2 : Fin 64 → EReal) (W3 : Fin 64 → Fin 64 → EReal) (b3 : Fin 64 → EReal)
    (j : Fin 64) : EReal :=
  layer (layer (first s a w0 W1 b1) W2 b2) W3 b3 j + layer (first s a w0 W1 b1) W2 b2 j

/-- A node's descriptor row from its 64×3 aggregate: entry `8·d + e` is the inner product of rows `d` and `e`, `e < 8`. -/
def gram (a : Fin 64 → Fin 3 → EReal) (q : Fin 512) : EReal :=
  ∑ k : Fin 3, a ⟨q.val / 8, by have := q.isLt; omega⟩ k * a ⟨q.val % 8, by have := q.isLt; omega⟩ k

end Cert.Spec

end
-- ==== Proof.KernelMlpRow.lean ====
/-
  The network kernel's output block read one entry at a time.

  The body loads a block of 8000 direction vectors and their 8000 attribute rows with the whole weight and bias arrays.
  Per row it forms the length (the square root of the lane sum of squares), the smooth cutoff of the length (two nested
  selections around the taper), the first layer as the cutoff times the row `w₀` plus the attributes' product with `W₁`
  plus the bias under the hyperbolic tangent, the second and third layers as matrix products into zero accumulators plus
  bias under the hyperbolic tangent, and stores the third layer plus the second. Entry `(p, q)` of the stored block is
  therefore the specification's `mlpRow` on row `p`. The narrowing of the matrix products' operands is the identity on
  the extended reals.
-/
import proofs.«421568_j9552007266521_3_alg».proof.Proof.Gen.KernelIdeal.Frame
import proofs.«421568_j9552007266521_3_alg».proof.Proof.Gen.ReferenceIdeal.Read
import proofs.«421568_j9552007266521_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.KernelIdeal.RowValue
open Cert.KernelIdeal Cert.KernelIdeal.Gen

/-! ## Layout operations on a column, read at coordinates -/

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root and the hyperbolic tangent act entry by entry. -/
theorem sqrt_apply {s : Shape} {φ : FTy} (a : FVec Ideal s φ) (i : s.Idx) : sqrt a i = Ideal.sqrt (a i) := rfl
theorem tanh_apply {s : Shape} {φ : FTy} (a : FVec Ideal s φ) (i : s.Idx) : tanh a i = Ideal.tanh (a i) := rfl

/-! ## The length of a row -/

/-- The lane sum of the squared coordinates of row `p`. -/
theorem rowSq (x0 : Vec Ideal S8000x3 .f32) (hφ : FKind.Formats .f32)
    (hacc : (0x00000000#32 : BitVec 32) = FKind.add.neutral .f32 hφ) (p : Fin 8000) :
    multiReduction (F := Ideal) .add [1] S8000 (mulf x0 x0) 0x00000000#32 reduces_S8000x3_S8000 hφ hacc (ix1 p)
      = ∑ k : Fin 3, x0 (ix2 p k) * x0 (ix2 p k) := by
  refine (Ideal.multiReduction_add_single (mulf x0 x0) 0x00000000#32 reduces_S8000x3_S8000 hφ hacc (ix1 p)).trans ?_
  refine Finset.sum_congr rfl fun k _ => ?_
  have e : reduces_S8000x3_S8000.lift (ix1 p) k = ix2 p k := funext fun a => Fin.ext (by
    match a with
    | ⟨0, _⟩ => rfl
    | ⟨1, _⟩ => rfl)
  rw [e]; rfl

/-- The column of row lengths at row `p`. -/
theorem rowLen (x0 : Vec Ideal S8000x3 .f32) (hφ : FKind.Formats .f32)
    (hacc : (0x00000000#32 : BitVec 32) = FKind.add.neutral .f32 hφ) (p : Fin 8000) (u : Fin 1) :
    sqrt (shapeCast S8000x1 (multiReduction (F := Ideal) .add [1] S8000 (mulf x0 x0) 0x00000000#32 reduces_S8000x3_S8000 hφ hacc)
        shapeCasts_S8000_S8000x1) (ix2 p u)
      = Cert.Spec.rOf fun k => x0 (ix2 p k) := by
  refine (sqrt_apply _ _).trans ?_
  refine (congrArg Ideal.sqrt (shapeCast_a_a1_apply _ shapeCasts_S8000_S8000x1 p u)).trans ?_
  exact congrArg Ideal.sqrt (rowSq x0 hφ hacc p)

/-- The radial weight times the row `w₀`: entry `(p, j)` of the first summand of the first layer. -/
theorem k0_pay2_apply (x0 : Vec Ideal S8000x3 .f32) (x3 : Vec Ideal S32 .f32) (p : Fin 8000) (j : Fin 32) :
    k0_pay2 (F := Ideal) x0 x3 (ix2 p j)
      = Cert.Spec.smooth (Cert.Spec.rOf fun k => x0 (ix2 p k)) * x3 (ix1 j) := by
  unfold k0_pay2
  refine (mulf_apply _ _ _).trans ?_
  rw [broadcastTo_a1_ab_apply, broadcastTo_1b_ab_apply, shapeCast_a_1a_apply, shapeCast_self]
  refine congrArg (· * x3 (ix1 j)) ?_
  rw [← rowLen x0 (.inl rfl) rfl p (0 : Fin 1)]
  generalize sqrt (shapeCast S8000x1 (multiReduction (F := Ideal) .add [1] S8000 (mulf x0 x0) 0x00000000#32
    reduces_S8000x3_S8000 (.inl rfl) rfl) shapeCasts_S8000_S8000x1) = r
  rfl

/-- The attributes pass through unchanged. -/
theorem k0_pay3_apply (x1 : Vec Ideal S8000x8 .f32) (i : S8000x8.Idx) : k0_pay3 (F := Ideal) x1 i = x1 i := by
  unfold k0_pay3
  rw [shapeCast_self]
  rfl

/-! ## The three products read at coordinates -/

theorem lhs8_0 (i : S8000x32.Idx) (q : dot_S8000x8_S8x32_S8000x32_1_0_0_1_n_n.contr.Idx) :
    (dot_S8000x8_S8x32_S8000x32_1_0_0_1_n_n.lhsIdx i q 0).val = (i 0).val := by
  unfold DotDims.lhsIdx
  rw [dif_neg (show ¬(0 : Fin S8000x8.rank) ∈ dot_S8000x8_S8x32_S8000x32_1_0_0_1_n_n.lhsBatch by decide), dif_pos (show (0 : Fin S8000x8.rank) ∈ dot_S8000x8_S8x32_S8000x32_1_0_0_1_n_n.lhsNonContracting by decide)]
  rfl
theorem lhs8_1 (i : S8000x32.Idx) (q : dot_S8000x8_S8x32_S8000x32_1_0_0_1_n_n.contr.Idx) :
    (dot_S8000x8_S8x32_S8000x32_1_0_0_1_n_n.lhsIdx i q 1).val = (q ⟨0, by decide⟩).val :=
  dot_S8000x8_S8x32_S8000x32_1_0_0_1_n_n.lhsIdx_val_of_single rfl i q
theorem rhs8_0 (i : S8000x32.Idx) (q : dot_S8000x8_S8x32_S8000x32_1_0_0_1_n_n.contr.Idx) :
    (dot_S8000x8_S8x32_S8000x32_1_0_0_1_n_n.rhsIdx i q 0).val = (q ⟨0, by decide⟩).val :=
  dot_S8000x8_S8x32_S8000x32_1_0_0_1_n_n.rhsIdx_val_of_single rfl i q
theorem rhs8_1 (i : S8000x32.Idx) (q : dot_S8000x8_S8x32_S8000x32_1_0_0_1_n_n.contr.Idx) :
    (dot_S8000x8_S8x32_S8000x32_1_0_0_1_n_n.rhsIdx i q 1).val = (i 1).val := by
  unfold DotDims.rhsIdx
  rw [dif_neg (show ¬(1 : Fin S8x32.rank) ∈ dot_S8000x8_S8x32_S8000x32_1_0_0_1_n_n.rhsBatch by decide), dif_pos (show (1 : Fin S8x32.rank) ∈ dot_S8000x8_S8x32_S8000x32_1_0_0_1_n_n.rhsNonContracting by decide)]
  rfl

/-- The product of the attributes with `W₁`, into a zero accumulator: entry `(p, j)` is the sum over the eight attributes. -/
theorem matmul8_apply {φ₁ φ₂ : FTy} (lhs : FVec Ideal S8000x8 φ₁) (rhs : FVec Ideal S8x32 φ₂) (p : Fin 8000) (j : Fin 32) :
    matmul dot_S8000x8_S8x32_S8000x32_1_0_0_1_n_n none lhs rhs (constant (F := Ideal) S8000x32 .f32 0x00000000#32) (ix2 p j)
      = ∑ k : Fin 8, lhs (ix2 p k) * rhs (ix2 k j) := by
  simp only [matmul]
  rw [Ideal.matmul_constant_zero_apply, ← Equiv.sum_comp (ValueIdx.contrEquiv1 dot_S8000x8_S8x32_S8000x32_1_0_0_1_n_n 8 rfl rfl).symm]
  refine Finset.sum_congr rfl fun k _ => ?_
  have hk := ValueIdx.contrEquiv1_symm_val dot_S8000x8_S8x32_S8000x32_1_0_0_1_n_n 8 rfl rfl k
  have el : dot_S8000x8_S8x32_S8000x32_1_0_0_1_n_n.lhsIdx (ix2 p j) ((ValueIdx.contrEquiv1 dot_S8000x8_S8x32_S8000x32_1_0_0_1_n_n 8 rfl rfl).symm k) = ix2 p k := funext fun a => Fin.ext (by
    match a with
    | ⟨0, _⟩ => exact lhs8_0 _ _
    | ⟨1, _⟩ => exact (lhs8_1 _ _).trans hk)
  have er : dot_S8000x8_S8x32_S8000x32_1_0_0_1_n_n.rhsIdx (ix2 p j) ((ValueIdx.contrEquiv1 dot_S8000x8_S8x32_S8000x32_1_0_0_1_n_n 8 rfl rfl).symm k) = ix2 k j := funext fun a => Fin.ext (by
    match a with
    | ⟨0, _⟩ => exact (rhs8_0 _ _).trans hk
    | ⟨1, _⟩ => exact rhs8_1 _ _)
  rw [el, er]

theorem lhs32_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem lhs32_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
theorem rhs32_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
theorem rhs32_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The product of the first layer with `W₂`, into a zero accumulator: entry `(p, j)` is the sum over its 32 entries. -/
theorem matmul32_apply {φ₁ φ₂ : FTy} (lhs : FVec Ideal S8000x32 φ₁) (rhs : FVec Ideal S32x64 φ₂) (p : Fin 8000) (j : Fin 64) :
    matmul dot_S8000x32_S32x64_S8000x64_1_0_0_1_n_n none lhs rhs (constant (F := Ideal) S8000x64 .f32 0x00000000#32) (ix2 p j)
      = ∑ k : Fin 32, lhs (ix2 p k) * rhs (ix2 k j) := by
  simp only [matmul]
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p j) ((ValueIdx.contrEquiv1 dot_S8000x32_S32x64_S8000x64_1_0_0_1_n_n 32 rfl rfl).symm k) = ix2 p k := funext fun a => Fin.ext (by
    match a with
    | ⟨0, _⟩ => exact lhs32_0 _ _
    | ⟨1, _⟩ => exact (lhs32_1 _ _).trans hk)
  have er : dot_S8000x32_S32x64_S8000x64_1_0_0_1_n_n.rhsIdx (ix2 p j) ((ValueIdx.contrEquiv1 dot_S8000x32_S32x64_S8000x64_1_0_0_1_n_n 32 rfl rfl).symm k) = ix2 k j := funext fun a => Fin.ext (by
    match a with
    | ⟨0, _⟩ => exact (rhs32_0 _ _).trans hk
    | ⟨1, _⟩ => exact rhs32_1 _ _)
  rw [el, er]

theorem lhs64_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs64_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs64_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs64_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The product of the second layer with `W₃`, into a zero accumulator: entry `(p, j)` is the sum over its 64 entries. -/
theorem matmul64_apply {φ₁ φ₂ : FTy} (lhs : FVec Ideal S8000x64 φ₁) (rhs : FVec Ideal S64x64 φ₂) (p : Fin 8000) (j : Fin 64) :
    matmul dot_S8000x64_S64x64_S8000x64_1_0_0_1_n_n none lhs rhs (constant (F := Ideal) S8000x64 .f32 0x00000000#32) (ix2 p j)
      = ∑ k : Fin 64, lhs (ix2 p k) * rhs (ix2 k j) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p j) ((ValueIdx.contrEquiv1 dot_S8000x64_S64x64_S8000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S8000x64_S64x64_S8000x64_1_0_0_1_n_n.rhsIdx (ix2 p j) ((ValueIdx.contrEquiv1 dot_S8000x64_S64x64_S8000x64_1_0_0_1_n_n 64 rfl rfl).symm k) = ix2 k j := funext fun a => Fin.ext (by
    match a with
    | ⟨0, _⟩ => exact (rhs64_0 _ _).trans hk
    | ⟨1, _⟩ => exact rhs64_1 _ _)
  rw [el, er]

/-! ## The three layers -/

/-- A bias row `[n]`, cast to `[1, n]` and broadcast over the rows, reads at `(p, j)` the bias at `j`. -/
theorem biasRow_apply {α : Type} {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (p : Fin a) (j : Fin n) :
    broadcastTo ⟨2, ![a, n]⟩ (shapeCast ⟨2, ![1, n]⟩ b hc) hb (ix2 p j) = b (ix1 j) :=
  (broadcastTo_1b_ab_apply _ hb p j).trans (shapeCast_a_1a_apply b hc 0 j)

/-- The stored block from the first summand `s` of the first layer and the attributes `a`: three dense layers on row `p`,
    the second added back to the third. -/
theorem k0_pay1_apply (s : FVec Ideal S8000x32 .f32) (a : FVec Ideal S8000x8 .bf16) (W1 : Vec Ideal S8x32 .f32) (b1 : Vec Ideal S32 .f32)
    (W2 : Vec Ideal S32x64 .f32) (b2 : Vec Ideal S64 .f32) (W3 : Vec Ideal S64x64 .f32) (b3 : Vec Ideal S64 .f32)
    (p : Fin 8000) (q : Fin 64) :
    k0_pay1 (F := Ideal) s a W1 b1 W2 b2 W3 b3 (ix2 p q)
      = Cert.Spec.layer (Cert.Spec.layer
            (fun j => Ideal.tanh ((s (ix2 p j) + ∑ k : Fin 8, a (ix2 p k) * W1 (ix2 k j)) + b1 (ix1 j)))
            (fun k j => W2 (ix2 k j)) (fun j => b2 (ix1 j))) (fun k j => W3 (ix2 k j)) (fun j => b3 (ix1 j)) q
        + Cert.Spec.layer
            (fun j => Ideal.tanh ((s (ix2 p j) + ∑ k : Fin 8, a (ix2 p k) * W1 (ix2 k j)) + b1 (ix1 j)))
            (fun k j => W2 (ix2 k j)) (fun j => b2 (ix1 j)) q := by
  unfold k0_pay1
  simp only [addf_apply, tanh_apply, truncf_apply, matmul64_apply, matmul32_apply, matmul8_apply, biasRow_apply, shapeCast_self]
  rfl

/-! ## The output block -/

theorem out0_9_row (x0 : Vec Ideal S8000x3 .f32) (x1 : Vec Ideal S8000x8 .f32) (x2 : Vec Ideal S8x32 .f32) (x3 : Vec Ideal S32 .f32)
    (x4 : Vec Ideal S32 .f32) (x5 : Vec Ideal S32x64 .f32) (x6 : Vec Ideal S64 .f32) (x7 : Vec Ideal S64x64 .f32) (x8 : Vec Ideal S64 .f32)
    (p : Fin 8000) (q : Fin 64) :
    out0_9 (F := Ideal) x0 x1 x2 x3 x4 x5 x6 x7 x8 (ix2 p q)
      = Cert.Spec.mlpRow (Cert.Spec.smooth (Cert.Spec.rOf fun k => x0 (ix2 p k))) (fun k => x1 (ix2 p k)) (fun j => x3 (ix1 j))
          (fun k j => x2 (ix2 k j)) (fun j => x4 (ix1 j)) (fun k j => x5 (ix2 k j)) (fun j => x6 (ix1 j)) (fun k j => x7 (ix2 k j))
          (fun j => x8 (ix1 j)) q := by
  have hz : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  unfold out0_9
  rw [View.canon_unit_zero hz]
  simp only [View.ld_unit_zero (S := S8000x3) hz, View.ld_unit_zero (S := S8000x8) hz, View.ld_unit_zero (S := S8x32) hz,
    View.ld_unit_zero (S := S32x64) hz, View.ld_unit_zero (S := S64x64) hz, View.ld_unit_zero (S := S32) hz1,
    View.ld_unit_zero (S := S64) hz1]
  refine (k0_pay1_apply _ _ x2 x4 x5 x6 x7 x8 p q).trans ?_
  simp only [k0_pay2_apply, k0_pay3_apply]
  rfl

end Cert.KernelIdeal.RowValue
end
-- ==== Proof.EdgeArray.lean ====
/-
  The first region's output array as one function of the arrays it is entered with.

  The grid has 125 points; point `t` reads edges `8000·t … 8000·t + 7999` of the direction-vector array and of the
  attribute array, the whole of every weight and bias array, and writes the same edges' rows of the [1000000, 64] feature
  array, each row the edge's `Cert.Spec.mlpRow`. The blocks are disjoint and fill the array, so after the last write-back
  the whole array is `edgeRows` of the region's operands.
-/
import proofs.«421568_j9552007266521_3_alg».proof.Proof.Gen.KernelIdeal.Frame
import proofs.«421568_j9552007266521_3_alg».proof.Proof.KernelMlpRow
import Idealize.ShloMosaic.Lib.ValueIdx
import Idealize.ShloMosaic.Lib.Pipeline.Value

set_option maxRecDepth 16384

noncomputable section

namespace Cert.KernelIdeal.Results

open Cert.KernelIdeal Cert.KernelIdeal.Gen Cert.KernelIdeal.RowValue
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Every edge's feature row from the region's operand arrays. -/
def edgeRows (x0 : (⟨S1000000x3, .f32⟩ : BufTy).Contents (Elt Ideal)) (attr : (⟨S1000000x8, .f32⟩ : BufTy).Contents (Elt Ideal))
    (w1a : (⟨S8x32, .f32⟩ : BufTy).Contents (Elt Ideal)) (w1s : (⟨S32, .f32⟩ : BufTy).Contents (Elt Ideal))
    (b1 : (⟨S32, .f32⟩ : BufTy).Contents (Elt Ideal)) (W2 : (⟨S32x64, .f32⟩ : BufTy).Contents (Elt Ideal))
    (b2 : (⟨S64, .f32⟩ : BufTy).Contents (Elt Ideal)) (W3 : (⟨S64x64, .f32⟩ : BufTy).Contents (Elt Ideal))
    (b3 : (⟨S64, .f32⟩ : BufTy).Contents (Elt Ideal)) : (⟨S1000000x64, .f32⟩ : BufTy).Contents (Elt Ideal) :=
  fun i => Cert.Spec.mlpRow (Cert.Spec.smooth (Cert.Spec.rOf fun k => x0 (ix2 (i 0) k))) (fun k => attr (ix2 (i 0) k))
    (fun j => w1s (ix1 j)) (fun k j => w1a (ix2 k j)) (fun j => b1 (ix1 j)) (fun k j => W2 (ix2 k j)) (fun j => b2 (ix1 j))
    (fun k j => W3 (ix2 k j)) (fun j => b3 (ix1 j)) (i 1)

/-- The printed index maps over the grid: the direction vectors', the attributes' and the output's blocks move with the
    point along the edge axis; every weight and bias block stays at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- What point `t` writes back is block `t` of the feature rows of the operand arrays as the region finds them. -/
theorem flushed0 (c : Dev nD) (t : Fin cfg0.N) :
    (dat0 V c).flushed 9 t = ((cfg0.win 9).blk t).view.read (Elt Ideal)
      (edgeRows (V c main_arg0) (V c main_v18) (V c main_v19) (V c main_v21) (V c main_arg5) (V c main_arg6) (V c main_arg7)
        (V c main_arg8) (V c main_arg9)) := by
  show (cfg0.win 9).cut (grid0.coords t) ((dat0 V c).after 9 t) = _
  rw [after0_9]
  obtain ⟨a00, a01, a10, a11, a20, a21, a30, a40, a50, a51, a60, a70, a71, a80, a90, a91⟩ := idx0 t
  have ht : t.val < 125 := lt_of_lt_of_eq t.isLt N_0
  funext j
  obtain ⟨p, q, rfl⟩ : ∃ (p : Fin 8000) (q : Fin 64), j = ix2 p q := ⟨j 0, j 1, eq_ix2 j⟩
  refine (out0_9_row (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  have hp : p.val < 8000 := p.isLt
  have hrow : ((cfg0.win 9).blk t).view.emb (ix2 p q) = ix2 (⟨8000 * t.val + p.val, by omega⟩ : Fin 1000000) q := by
    funext a; apply Fin.ext
    match a with
    | ⟨0, _⟩ => show win0_9.index t (0 : Fin 2) * 8000 + 1 * p.val = 8000 * t.val + p.val; omega
    | ⟨1, _⟩ => show win0_9.index t (1 : Fin 2) * 64 + 1 * q.val = q.val; omega
  show _ = edgeRows (V c main_arg0) (V c main_v18) (V c main_v19) (V c main_v21) (V c main_arg5) (V c main_arg6) (V c main_arg7)
        (V c main_arg8) (V c main_arg9) (((cfg0.win 9).blk t).view.emb (ix2 p q))
  rw [hrow]
  have h0 : ∀ k : Fin 3, iblk0 V c 0 t (ix2 p k) = V c main_arg0 (ix2 (⟨8000 * t.val + p.val, by omega⟩ : Fin 1000000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 8000 + 1 * p.val = 8000 * t.val + p.val; omega
    | ⟨1, _⟩ => show win0_0.index t (1 : Fin 2) * 3 + 1 * k.val = k.val; omega
  have h1 : ∀ k : Fin 8, iblk0 V c 1 t (ix2 p k) = V c main_v18 (ix2 (⟨8000 * t.val + p.val, by omega⟩ : Fin 1000000) k) := fun k => by
    show V c main_v18 (((cfg0.win 1).blk t).view.emb (ix2 p k)) = _
    refine congrArg (V c main_v18) ?_
    funext a; apply Fin.ext
    match a with
    | ⟨0, _⟩ => show win0_1.index t (0 : Fin 2) * 8000 + 1 * p.val = 8000 * t.val + p.val; omega
    | ⟨1, _⟩ => show win0_1.index t (1 : Fin 2) * 8 + 1 * k.val = k.val; omega
  have h2 : ∀ (k : Fin 8) (j : Fin 32), iblk0 V c 2 t (ix2 k j) = V c main_v19 (ix2 k j) := fun k j => by
    show V c main_v19 (((cfg0.win 2).blk t).view.emb (ix2 k j)) = _
    refine congrArg (V c main_v19) ?_
    funext a; apply Fin.ext
    match a with
    | ⟨0, _⟩ => show win0_2.index t (0 : Fin 2) * 8 + 1 * k.val = k.val; omega
    | ⟨1, _⟩ => show win0_2.index t (1 : Fin 2) * 32 + 1 * j.val = j.val; omega
  have h3 : ∀ j : Fin 32, iblk0 V c 3 t (ix1 j) = V c main_v21 (ix1 j) := fun j => by
    show V c main_v21 (((cfg0.win 3).blk t).view.emb (ix1 j)) = _
    refine congrArg (V c main_v21) ?_
    funext a; apply Fin.ext
    match a with
    | ⟨0, _⟩ => show win0_3.index t (0 : Fin 1) * 32 + 1 * j.val = j.val; omega
  have h4 : ∀ j : Fin 32, iblk0 V c 4 t (ix1 j) = V c main_arg5 (ix1 j) := fun j => by
    show V c main_arg5 (((cfg0.win 4).blk t).view.emb (ix1 j)) = _
    refine congrArg (V c main_arg5) ?_
    funext a; apply Fin.ext
    match a with
    | ⟨0, _⟩ => show win0_4.index t (0 : Fin 1) * 32 + 1 * j.val = j.val; omega
  have h5 : ∀ (k : Fin 32) (j : Fin 64), iblk0 V c 5 t (ix2 k j) = V c main_arg6 (ix2 k j) := fun k j => by
    show V c main_arg6 (((cfg0.win 5).blk t).view.emb (ix2 k j)) = _
    refine congrArg (V c main_arg6) ?_
    funext a; apply Fin.ext
    match a with
    | ⟨0, _⟩ => show win0_5.index t (0 : Fin 2) * 32 + 1 * k.val = k.val; omega
    | ⟨1, _⟩ => show win0_5.index t (1 : Fin 2) * 64 + 1 * j.val = j.val; omega
  have h6 : ∀ j : Fin 64, iblk0 V c 6 t (ix1 j) = V c main_arg7 (ix1 j) := fun j => by
    show V c main_arg7 (((cfg0.win 6).blk t).view.emb (ix1 j)) = _
    refine congrArg (V c main_arg7) ?_
    funext a; apply Fin.ext
    match a with
    | ⟨0, _⟩ => show win0_6.index t (0 : Fin 1) * 64 + 1 * j.val = j.val; omega
  have h7 : ∀ (k : Fin 64) (j : Fin 64), iblk0 V c 7 t (ix2 k j) = V c main_arg8 (ix2 k j) := fun k j => by
    show V c main_arg8 (((cfg0.win 7).blk t).view.emb (ix2 k j)) = _
    refine congrArg (V c main_arg8) ?_
    funext a; apply Fin.ext
    match a with
    | ⟨0, _⟩ => show win0_7.index t (0 : Fin 2) * 64 + 1 * k.val = k.val; omega
    | ⟨1, _⟩ => show win0_7.index t (1 : Fin 2) * 64 + 1 * j.val = j.val; omega
  have h8 : ∀ j : Fin 64, iblk0 V c 8 t (ix1 j) = V c main_arg9 (ix1 j) := fun j => by
    show V c main_arg9 (((cfg0.win 8).blk t).view.emb (ix1 j)) = _
    refine congrArg (V c main_arg9) ?_
    funext a; apply Fin.ext
    match a with
    | ⟨0, _⟩ => show win0_8.index t (0 : Fin 1) * 64 + 1 * j.val = j.val; omega
  simp only [h0, h1, h2, h3, h4, h5, h6, h7, h8]
  rfl

/-- An index of the feature array is in point `t`'s block iff each coordinate is in the block's range on its axis. -/
theorem mem_blk0 (t : Fin cfg0.N) (i : S1000000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v22).slice (win0_9.rect t)).set ↔ _
  rw [View.set_slice_whole, Rect.mem_set_unit]
  exact Iff.rfl

/-- Every index of the feature array lies in the block of the point its edge's number over 8000 names. -/
theorem cover0 (i : S1000000x64.Idx) : ∃ t : Fin cfg0.N, (cfg0.win 9).flush t = true ∧ i ∈ ((cfg0.win 9).blk t).view.set := by
  have hi0 : (i 0).val < 1000000 := (i 0).isLt
  have hi1 : (i 1).val < 64 := (i 1).isLt
  have hN : (i 0).val / 8000 < cfg0.N := lt_of_lt_of_eq (by omega : (i 0).val / 8000 < 125) N_0.symm
  obtain ⟨a00, a01, a10, a11, a20, a21, a30, a40, a50, a51, a60, a70, a71, a80, a90, a91⟩ := idx0 ⟨(i 0).val / 8000, hN⟩
  have a90' : win0_9.index ⟨(i 0).val / 8000, hN⟩ (0 : Fin 2) = (i 0).val / 8000 := a90
  refine ⟨⟨(i 0).val / 8000, hN⟩, flush0_9 _, ?_⟩
  rw [mem_blk0]
  intro a
  match a with
  | ⟨0, _⟩ =>
    show win0_9.index ⟨(i 0).val / 8000, hN⟩ (0 : Fin 2) * 8000 ≤ (i 0).val
      ∧ (i 0).val < win0_9.index ⟨(i 0).val / 8000, hN⟩ (0 : Fin 2) * 8000 + 8000
    omega
  | ⟨1, _⟩ =>
    show win0_9.index ⟨(i 0).val / 8000, hN⟩ (1 : Fin 2) * 64 ≤ (i 1).val
      ∧ (i 1).val < win0_9.index ⟨(i 0).val / 8000, hN⟩ (1 : Fin 2) * 64 + 64
    omega

/-- The feature array after the region's last write-back: every edge's feature row of the operand arrays. -/
theorem edgeArray (c : Dev nD) : (dat0 V c).arrAt 9 cfg0.N
    = edgeRows (V c main_arg0) (V c main_v18) (V c main_v19) (V c main_v21) (V c main_arg5) (V c main_arg6) (V c main_arg7)
        (V c main_arg8) (V c main_arg9) :=
  (dat0 V c).arrAt_eq_of_cover 9 _ (fun t _ => flushed0 V c t) (cover0)

end Cert.KernelIdeal.Results

end
-- ==== Proof.KernelGram.lean ====
/-
  The batched-product kernel's output block read one entry at a time.

  The body loads the 200×64×3 block, keeps rows 0..7 of the middle axis as the right operand, multiplies the block by it
  (batch axis the node, contraction over the three coordinates, zero accumulator) and lays the 64×8 result out row-major
  as 512 entries. Entry `q` of node `p` is therefore the inner product of rows `q / 8` and `q % 8` of the node's
  block: the specification's `gram`. The narrowing of the operands is the identity on the extended reals.
-/
import proofs.«421568_j9552007266521_3_alg».proof.Proof.Gen.KernelIdeal.Frame
import proofs.«421568_j9552007266521_3_alg».proof.Proof.RowSpec
import Idealize.ShloMosaic.Lib.ValueIdx
import Idealize.ShloMosaic.Lib.Pipeline.Value
import Idealize.ShloMosaic.PureOps.Ideal.Laws

noncomputable section
open Idealize.ShloMosaic Idealize.ShloMosaic.ValueIdx

namespace Cert.KernelIdeal.RowValue
open Cert.KernelIdeal Cert.KernelIdeal.Gen

/-! ## The whole-buffer rectangles have zero offsets -/

theorem zero_off2 : (![0, 0] : Fin S200x512.rank → Nat) = fun _ => 0 := by
  funext a; match a with | ⟨0, _⟩ => rfl | ⟨1, _⟩ => rfl

theorem zero_off3 : (![0, 0, 0] : Fin S200x64x3.rank → Nat) = fun _ => 0 := by
  funext a; match a with | ⟨0, _⟩ => rfl | ⟨1, _⟩ => rfl | ⟨2, _⟩ => rfl

/-! ## The product's operand indices, axis by axis -/

theorem lhs_bmm_0 (i : S200x64x8.Idx) (c : dot_S200x64x3_S200x8x3_S200x64x8_2_2_1_1_0_0.contr.Idx) :
    (dot_S200x64x3_S200x8x3_S200x64x8_2_2_1_1_0_0.lhsIdx i c 0).val = (i 0).val := by
  unfold DotDims.lhsIdx
  rw [dif_pos (show (0 : Fin S200x64x3.rank) ∈ dot_S200x64x3_S200x8x3_S200x64x8_2_2_1_1_0_0.lhsBatch by decide)]
  rfl
theorem lhs_bmm_1 (i : S200x64x8.Idx) (c : dot_S200x64x3_S200x8x3_S200x64x8_2_2_1_1_0_0.contr.Idx) :
    (dot_S200x64x3_S200x8x3_S200x64x8_2_2_1_1_0_0.lhsIdx i c 1).val = (i 1).val := by
  unfold DotDims.lhsIdx
  rw [dif_neg (show ¬(1 : Fin S200x64x3.rank) ∈ dot_S200x64x3_S200x8x3_S200x64x8_2_2_1_1_0_0.lhsBatch by decide), dif_pos (show (1 : Fin S200x64x3.rank) ∈ dot_S200x64x3_S200x8x3_S200x64x8_2_2_1_1_0_0.lhsNonContracting by decide)]
  rfl
theorem lhs_bmm_2 (i : S200x64x8.Idx) (c : dot_S200x64x3_S200x8x3_S200x64x8_2_2_1_1_0_0.contr.Idx) :
    (dot_S200x64x3_S200x8x3_S200x64x8_2_2_1_1_0_0.lhsIdx i c 2).val = (c ⟨0, by decide⟩).val :=
  dot_S200x64x3_S200x8x3_S200x64x8_2_2_1_1_0_0.lhsIdx_val_of_single rfl i c
theorem rhs_bmm_0 (i : S200x64x8.Idx) (c : dot_S200x64x3_S200x8x3_S200x64x8_2_2_1_1_0_0.contr.Idx) :
    (dot_S200x64x3_S200x8x3_S200x64x8_2_2_1_1_0_0.rhsIdx i c 0).val = (i 0).val := by
  unfold DotDims.rhsIdx
  rw [dif_pos (show (0 : Fin S200x8x3.rank) ∈ dot_S200x64x3_S200x8x3_S200x64x8_2_2_1_1_0_0.rhsBatch by decide)]
  rfl
theorem rhs_bmm_1 (i : S200x64x8.Idx) (c : dot_S200x64x3_S200x8x3_S200x64x8_2_2_1_1_0_0.contr.Idx) :
    (dot_S200x64x3_S200x8x3_S200x64x8_2_2_1_1_0_0.rhsIdx i c 1).val = (i 2).val := by
  unfold DotDims.rhsIdx
  rw [dif_neg (show ¬(1 : Fin S200x8x3.rank) ∈ dot_S200x64x3_S200x8x3_S200x64x8_2_2_1_1_0_0.rhsBatch by decide), dif_pos (show (1 : Fin S200x8x3.rank) ∈ dot_S200x64x3_S200x8x3_S200x64x8_2_2_1_1_0_0.rhsNonContracting by decide)]
  rfl
theorem rhs_bmm_2 (i : S200x64x8.Idx) (c : dot_S200x64x3_S200x8x3_S200x64x8_2_2_1_1_0_0.contr.Idx) :
    (dot_S200x64x3_S200x8x3_S200x64x8_2_2_1_1_0_0.rhsIdx i c 2).val = (c ⟨0, by decide⟩).val :=
  dot_S200x64x3_S200x8x3_S200x64x8_2_2_1_1_0_0.rhsIdx_val_of_single rfl i c

/-- The batched product into the zero accumulator at `(p, d, e)`: row `d` of the left operand's block `p` times row `e`
    of the right operand's. -/
theorem bmm_apply (x : FVec Ideal S200x64x3 .bf16) (y : FVec Ideal S200x8x3 .bf16) (p : Fin 200) (d : Fin 64) (e : Fin 8) :
    matmul dot_S200x64x3_S200x8x3_S200x64x8_2_2_1_1_0_0 none x y (constant (F := Ideal) S200x64x8 .f32 0x00000000#32) (ix3 p d e)
      = ∑ k : Fin 3, x (ix3 p d k) * y (ix3 p e k) := by
  simp only [matmul]
  rw [Ideal.matmul_constant_zero_apply, ← Equiv.sum_comp (contrEquiv1 dot_S200x64x3_S200x8x3_S200x64x8_2_2_1_1_0_0 3 rfl rfl).symm]
  refine Finset.sum_congr rfl fun k _ => ?_
  have hk := contrEquiv1_symm_val dot_S200x64x3_S200x8x3_S200x64x8_2_2_1_1_0_0 3 rfl rfl k
  have el : dot_S200x64x3_S200x8x3_S200x64x8_2_2_1_1_0_0.lhsIdx (ix3 p d e) ((contrEquiv1 dot_S200x64x3_S200x8x3_S200x64x8_2_2_1_1_0_0 3 rfl rfl).symm k) = ix3 p d k := funext fun a => Fin.ext (by
    match a with
    | ⟨0, _⟩ => exact lhs_bmm_0 _ _
    | ⟨1, _⟩ => exact lhs_bmm_1 _ _
    | ⟨2, _⟩ => exact (lhs_bmm_2 _ _).trans hk)
  have er : dot_S200x64x3_S200x8x3_S200x64x8_2_2_1_1_0_0.rhsIdx (ix3 p d e) ((contrEquiv1 dot_S200x64x3_S200x8x3_S200x64x8_2_2_1_1_0_0 3 rfl rfl).symm k) = ix3 p e k := funext fun a => Fin.ext (by
    match a with
    | ⟨0, _⟩ => exact rhs_bmm_0 _ _
    | ⟨1, _⟩ => exact rhs_bmm_1 _ _
    | ⟨2, _⟩ => exact (rhs_bmm_2 _ _).trans hk)
  rw [el, er]

/-- The right operand keeps rows 0..7 of the middle axis. -/
theorem rows8_apply (v : FVec Ideal S200x64x3 .bf16) (p : Fin 200) (e : Fin 8) (k : Fin 3) :
    extractStridedSlice S200x8x3 ![0, 0, 0] v slices_S200x64x3_o0_0_0_S200x8x3 (ix3 p e k)
      = v (ix3 p (⟨e.val, by have := e.isLt; omega⟩ : Fin 64) k) :=
  extractStridedSlice_apply ![0, 0, 0] v slices_S200x64x3_o0_0_0_S200x8x3 (ix3 p e k) _ (fun a => match a with
    | ⟨0, _⟩ => by show p.val = 0 + p.val; omega
    | ⟨1, _⟩ => by show e.val = 0 + e.val; omega
    | ⟨2, _⟩ => by show k.val = 0 + k.val; omega)

/-- The row-major layout of the 64×8 result: entry `q` of the 512 is `(q / 8, q % 8)`. -/
theorem flat_apply (w : FVec Ideal S200x64x8 .f32) (p : Fin 200) (q : Fin 512) :
    shapeCast S200x512 w shapeCasts_S200x64x8_S200x512 (ix2 p q)
      = w (ix3 p (⟨q.val / 8, by have := q.isLt; omega⟩ : Fin 64) (⟨q.val % 8, Nat.mod_lt _ (by decide)⟩ : Fin 8)) :=
  shapeCast_apply w shapeCasts_S200x64x8_S200x512 (ix2 p q) _ (by
    rewrite [Shape.rowMajor_val_three, Shape.rowMajor_val_two]
    show (p.val * 64 + q.val / 8) * 8 + q.val % 8 = p.val * 512 + q.val
    omega)

/-- The kernel's output block entry is the specification's `gram` of the node's block. -/
theorem out1_1_row (x0 : Vec Ideal S200x64x3 .f32) (p : Fin 200) (q : Fin 512) :
    out1_1 (F := Ideal) x0 (ix2 p q) = Cert.Spec.gram (fun d k => x0 (ix3 p d k)) q := by
  unfold out1_1
  rw [View.canon_unit_zero zero_off2, View.ld_unit_zero zero_off3]
  unfold k1_pay1
  refine (flat_apply _ p q).trans ?_
  rw [bmm_apply]
  unfold Cert.Spec.gram
  refine Finset.sum_congr rfl fun k _ => ?_
  rw [rows8_apply, truncf_apply, truncf_apply, shapeCast_self]

end Cert.KernelIdeal.RowValue
end
-- ==== Proof.NodeArray.lean ====
/-
  The second region's output array as one function of the aggregate array it is entered with.

  The grid has 250 points; point `t` reads nodes `200·t … 200·t + 199` of the [50000, 64, 3] aggregate array and writes the
  same nodes' rows of the [50000, 512] descriptor array, each row the node's `Cert.Spec.gram`. The blocks are disjoint
  and fill the array, so after the last write-back the whole array is `nodeRows` of the aggregates.
-/
import proofs.«421568_j9552007266521_3_alg».proof.Proof.Gen.KernelIdeal.Frame
import proofs.«421568_j9552007266521_3_alg».proof.Proof.KernelGram
import Idealize.ShloMosaic.Lib.ValueIdx
import Idealize.ShloMosaic.Lib.Pipeline.Value

set_option maxRecDepth 16384

noncomputable section

namespace Cert.KernelIdeal.Results

open Cert.KernelIdeal Cert.KernelIdeal.Gen Cert.KernelIdeal.RowValue
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Every node's descriptor row from the aggregate array. -/
def nodeRows (a : (⟨S50000x64x3, .f32⟩ : BufTy).Contents (Elt Ideal)) : (⟨S50000x512, .f32⟩ : BufTy).Contents (Elt Ideal) :=
  fun i => Cert.Spec.gram (fun d k => a (ix3 (i 0) d k)) (i 1)

/-- The printed index maps over the grid: both windows' blocks move with the point along the node axis only. -/
theorem idx1 : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 :=
  (by decide +kernel : ∀ t : Fin grid1.N, _)

/-- What point `t` writes back is block `t` of the descriptor rows of the aggregate array as the region finds it. -/
theorem flushed1 (c : Dev nD) (t : Fin cfg1.N) :
    (dat1 V c).flushed 1 t = ((cfg1.win 1).blk t).view.read (Elt Ideal) (nodeRows (V c main_v40)) := by
  show (cfg1.win 1).cut (grid1.coords t) ((dat1 V c).after 1 t) = _
  rw [after1_1]
  obtain ⟨e0, e1, e2, e3, e4⟩ := idx1 t
  have ht : t.val < 250 := lt_of_lt_of_eq t.isLt N_1
  funext j
  obtain ⟨p, q, rfl⟩ : ∃ (p : Fin 200) (q : Fin 512), j = ix2 p q := ⟨j 0, j 1, eq_ix2 j⟩
  refine (out1_1_row (iblk1 V c 0 t) p q).trans ?_
  have hp : p.val < 200 := p.isLt
  have hrow : ((cfg1.win 1).blk t).view.emb (ix2 p q) = ix2 (⟨200 * t.val + p.val, by omega⟩ : Fin 50000) q := by
    funext a; apply Fin.ext
    match a with
    | ⟨0, _⟩ => show win1_1.index t (0 : Fin 2) * 200 + 1 * p.val = 200 * t.val + p.val; omega
    | ⟨1, _⟩ => show win1_1.index t (1 : Fin 2) * 512 + 1 * q.val = q.val; omega
  show _ = nodeRows (V c main_v40) (((cfg1.win 1).blk t).view.emb (ix2 p q))
  rw [hrow]
  show Cert.Spec.gram (fun d k => iblk1 V c 0 t (ix3 p d k)) q
    = Cert.Spec.gram (fun d k => V c main_v40 (ix3 (⟨200 * t.val + p.val, by omega⟩ : Fin 50000) d k)) q
  have hblk : ∀ (d : Fin 64) (k : Fin 3), iblk1 V c 0 t (ix3 p d k)
      = V c main_v40 (ix3 (⟨200 * t.val + p.val, by omega⟩ : Fin 50000) d k) := fun d k => by
    show V c main_v40 (((cfg1.win 0).blk t).view.emb (ix3 p d k)) = _
    refine congrArg (V c main_v40) ?_
    funext a; apply Fin.ext
    match a with
    | ⟨0, _⟩ => show win1_0.index t (0 : Fin 3) * 200 + 1 * p.val = 200 * t.val + p.val; omega
    | ⟨1, _⟩ => show win1_0.index t (1 : Fin 3) * 64 + 1 * d.val = d.val; omega
    | ⟨2, _⟩ => show win1_0.index t (2 : Fin 3) * 3 + 1 * k.val = k.val; omega
  simp only [hblk]

/-- An index of the descriptor array is in point `t`'s block iff each coordinate is in the block's range on its axis. -/
theorem mem_blk1 (t : Fin cfg1.N) (i : S50000x512.Idx) :
    i ∈ ((cfg1.win 1).blk t).view.set ↔ ∀ a : Fin 2, win1_1.index t a * S200x512.size a ≤ (i a).val
      ∧ (i a).val < win1_1.index t a * S200x512.size a + S200x512.size a := by
  show i ∈ ((View.whole main_v41).slice (win1_1.rect t)).set ↔ _
  rw [View.set_slice_whole, Rect.mem_set_unit]
  exact Iff.rfl

/-- Every index of the descriptor array lies in the block of the point its node's number over 200 names. -/
theorem cover1 (i : S50000x512.Idx) : ∃ t : Fin cfg1.N, (cfg1.win 1).flush t = true ∧ i ∈ ((cfg1.win 1).blk t).view.set := by
  have hi0 : (i 0).val < 50000 := (i 0).isLt
  have hi1 : (i 1).val < 512 := (i 1).isLt
  have hN : (i 0).val / 200 < cfg1.N := lt_of_lt_of_eq (by omega : (i 0).val / 200 < 250) N_1.symm
  obtain ⟨e0, e1, e2, e3, e4⟩ := idx1 ⟨(i 0).val / 200, hN⟩
  have e3' : win1_1.index ⟨(i 0).val / 200, hN⟩ (0 : Fin 2) = (i 0).val / 200 := e3
  refine ⟨⟨(i 0).val / 200, hN⟩, flush1_1 _, ?_⟩
  rw [mem_blk1]
  intro a
  match a with
  | ⟨0, _⟩ =>
    show win1_1.index ⟨(i 0).val / 200, hN⟩ (0 : Fin 2) * 200 ≤ (i 0).val
      ∧ (i 0).val < win1_1.index ⟨(i 0).val / 200, hN⟩ (0 : Fin 2) * 200 + 200
    omega
  | ⟨1, _⟩ =>
    show win1_1.index ⟨(i 0).val / 200, hN⟩ (1 : Fin 2) * 512 ≤ (i 1).val
      ∧ (i 1).val < win1_1.index ⟨(i 0).val / 200, hN⟩ (1 : Fin 2) * 512 + 512
    omega

/-- The descriptor array after the region's last write-back: every node's descriptor row of the aggregate array. -/
theorem nodeArray (c : Dev nD) : (dat1 V c).arrAt 1 cfg1.N = nodeRows (V c main_v40) :=
  (dat1 V c).arrAt_eq_of_cover 1 (nodeRows (V c main_v40)) (fun t _ => flushed1 V c t) (cover1)

end Cert.KernelIdeal.Results

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.AttrGather.lean ====
/-
  The attribute array of the kernel program and of the reference hold the same entries.

  The kernel program gathers the node-attribute table twice, once at the (wrapped) source row of the edge-index table and
  once at its (wrapped) target row, and lays the two [1000000 × 4] results side by side. The reference interleaves the
  two rows into one list of 2000000 positions (entry 2e + r is the table's (r, e)), wraps it, gathers once, and re-lays the
  [2000000 × 4] result as rows of eight. Entry (e, k) of either is the node-attribute table's entry (row, k mod 4), where
  row is the edge-index table's entry (k / 4, e), wrapped once by the number of nodes when negative, read signed and
  clamped into the table.
-/
import proofs.«421568_j9552007266521_3_alg».proof.Proof.HostTerms
import proofs.«421568_j9552007266521_3_alg».proof.Proof.Gen.ReferenceIdeal.Read
import proofs.«421568_j9552007266521_3_alg».proof.Proof.LibGatherRows
import Idealize.ShloMosaic.Lib.ValueIdx
import Idealize.ShloMosaic.Lib.Pipeline.Value

noncomputable section
open Idealize.ShloMosaic Idealize.ShloMosaic.ValueIdx

namespace Cert.KernelIdeal.Results

/-- A node index wrapped once: a negative index has the number of nodes added. -/
def wrapNode (v : BitVec 32) : BitVec 32 := Scalar.select (IntOp.cmpi .slt v 0#32) (IntOp.addi v 50000#32) v

/-- The table row a start index names: read signed, clamped into the 50000 rows. -/
def rowOf (v : BitVec 32) : Fin 50000 := ⟨min v.toInt.toNat (50000 - 1), by omega⟩

/-- The table row an edge-index entry names: wrapped once, then read signed and clamped. -/
def nodeRow (v : BitVec 32) : Fin 50000 := rowOf (wrapNode v)

section Kernel
variable {F : FTy → Type} [FloatOps F]

/-- Row 0 of the edge-index table as a vector: entry e is the table's (0, e). -/
theorem edgeRow0_apply (x2 : (⟨Cert.KernelIdeal.S2x1000000, .i32⟩ : BufTy).Contents (Elt F)) (e : Fin 1000000) :
    shapeCast Cert.KernelIdeal.S1000000
      (extractStridedSlice Cert.KernelIdeal.S1x1000000 ![0, 0] x2 Cert.KernelIdeal.Facts₀.slices_S2x1000000_S1x1000000_0_0)
      Cert.KernelIdeal.Facts₀.shapeCasts_S1x1000000_S1000000 (ix1 e) = x2 (ix2 (0 : Fin 2) e) := by
  refine (shapeCast_apply _ Cert.KernelIdeal.Facts₀.shapeCasts_S1x1000000_S1000000 (ix1 e) (ix2 (0 : Fin 1) e) ?_).trans ?_
  · rewrite [Shape.rowMajor_val_two, Shape.rowMajor_val_one]
    show 0 * 1000000 + e.val = e.val
    omega
  · exact extractStridedSlice_apply _ x2 Cert.KernelIdeal.Facts₀.slices_S2x1000000_S1x1000000_0_0 (ix2 (0 : Fin 1) e)
      (ix2 (0 : Fin 2) e) (fun a => match a with
        | ⟨0, _⟩ => rfl
        | ⟨1, _⟩ => by show e.val = 0 + e.val; omega)

/-- Row 1 of the edge-index table as a vector: entry e is the table's (1, e). -/
theorem edgeRow1_apply (x2 : (⟨Cert.KernelIdeal.S2x1000000, .i32⟩ : BufTy).Contents (Elt F)) (e : Fin 1000000) :
    shapeCast Cert.KernelIdeal.S1000000
      (extractStridedSlice Cert.KernelIdeal.S1x1000000 ![1, 0] x2 Cert.KernelIdeal.Facts₀.slices_S2x1000000_S1x1000000_1_0)
      Cert.KernelIdeal.Facts₀.shapeCasts_S1x1000000_S1000000 (ix1 e) = x2 (ix2 (1 : Fin 2) e) := by
  refine (shapeCast_apply _ Cert.KernelIdeal.Facts₀.shapeCasts_S1x1000000_S1000000 (ix1 e) (ix2 (0 : Fin 1) e) ?_).trans ?_
  · rewrite [Shape.rowMajor_val_two, Shape.rowMajor_val_one]
    show 0 * 1000000 + e.val = e.val
    omega
  · exact extractStridedSlice_apply _ x2 Cert.KernelIdeal.Facts₀.slices_S2x1000000_S1x1000000_1_0 (ix2 (0 : Fin 1) e)
      (ix2 (1 : Fin 2) e) (fun a => match a with
        | ⟨0, _⟩ => rfl
        | ⟨1, _⟩ => by show e.val = 0 + e.val; omega)

/-- A scalar integer constant laid over a vector reads the constant everywhere. -/
theorem bcastConst_apply (c : BitVec 32) (e : Fin 1000000) :
    broadcastInDim Cert.KernelIdeal.S1000000 ![] Cert.KernelIdeal.Facts₀.bcast_S_S1000000
      (constantI Cert.KernelIdeal.S_ 32 c) (ix1 e) = c :=
  broadcastInDim_apply _ Cert.KernelIdeal.Facts₀.bcast_S_S1000000 (constantI Cert.KernelIdeal.S_ 32 c) (ix1 e) ix0
    (fun a => a.elim0)

/-- The source nodes' start column at (e, 0): the wrapped (0, e) entry of the edge-index table. -/
theorem starts0_apply (x2 : (⟨Cert.KernelIdeal.S2x1000000, .i32⟩ : BufTy).Contents (Elt F)) (e : Fin 1000000) :
    starts0 (F := F) x2 (ix2 e (0 : Fin 1)) = wrapNode (x2 (ix2 (0 : Fin 2) e)) := by
  unfold starts0
  refine (broadcastInDim_apply _ Cert.KernelIdeal.Facts₀.bcast_S1000000_S1000000x1_0 _ (ix2 e (0 : Fin 1)) (ix1 e)
    (fun a => match a with
      | ⟨0, _⟩ => by show e.val = if (1000000 : Nat) = 1 then 0 else e.val; rw [if_neg (by decide)])).trans ?_
  show Scalar.select (IntOp.cmpi .slt _ _) (IntOp.addi _ _) _ = _
  rw [edgeRow0_apply, bcastConst_apply, bcastConst_apply]
  rfl

/-- The target nodes' start column at (e, 0): the wrapped (1, e) entry of the edge-index table. -/
theorem starts1_apply (x2 : (⟨Cert.KernelIdeal.S2x1000000, .i32⟩ : BufTy).Contents (Elt F)) (e : Fin 1000000) :
    starts1 (F := F) x2 (ix2 e (0 : Fin 1)) = wrapNode (x2 (ix2 (1 : Fin 2) e)) := by
  unfold starts1
  refine (broadcastInDim_apply _ Cert.KernelIdeal.Facts₀.bcast_S1000000_S1000000x1_0 _ (ix2 e (0 : Fin 1)) (ix1 e)
    (fun a => match a with
      | ⟨0, _⟩ => by show e.val = if (1000000 : Nat) = 1 then 0 else e.val; rw [if_neg (by decide)])).trans ?_
  show Scalar.select (IntOp.cmpi .slt _ _) (IntOp.addi _ _) _ = _
  rw [edgeRow1_apply, bcastConst_apply, bcastConst_apply]
  rfl

/-- The kernel program's attribute array, left half: entry (e, k), k < 4, is the table's row for the source node. -/
theorem attrK_left (x1 : (⟨Cert.KernelIdeal.S50000x4, .f32⟩ : BufTy).Contents (Elt F))
    (x2 : (⟨Cert.KernelIdeal.S2x1000000, .i32⟩ : BufTy).Contents (Elt F)) (e : Fin 1000000) (k : Fin 8) (hk : k.val < 4) :
    attrK (F := F) x1 x2 (ix2 e k) = x1 (ix2 (nodeRow (x2 (ix2 (0 : Fin 2) e))) (⟨k.val, hk⟩ : Fin 4)) := by
  unfold attrK
  refine (concatenate_pair_apply_left (t := Cert.KernelIdeal.S1000000x8) (s₁ := Cert.KernelIdeal.S1000000x4)
    (s₂ := Cert.KernelIdeal.S1000000x4) (1 : Fin 2) _ _ Cert.KernelIdeal.Facts₀.concatenates_S1000000x4_S1000000x4_S1000000x8_d1
    (ix2 e k) rfl (ix2 e (⟨k.val, hk⟩ : Fin 4)) (fun b => match b with
      | ⟨0, _⟩ => rfl
      | ⟨1, _⟩ => rfl)).trans ?_
  refine (Cert.Lib.gather_rows Cert.KernelIdeal.gather_S50000x4_S1000000x1_S1000000x4_1_0_n_n_0_1_14 rfl rfl rfl rfl rfl
    x1 (starts0 (F := F) x2) e (⟨k.val, hk⟩ : Fin 4) (by decide)).trans ?_
  exact congrArg (fun v => x1 (ix2 (rowOf v) (⟨k.val, hk⟩ : Fin 4))) (starts0_apply x2 e)

/-- The kernel program's attribute array, right half: entry (e, k), k ≥ 4, is the table's row for the target node. -/
theorem attrK_right (x1 : (⟨Cert.KernelIdeal.S50000x4, .f32⟩ : BufTy).Contents (Elt F))
    (x2 : (⟨Cert.KernelIdeal.S2x1000000, .i32⟩ : BufTy).Contents (Elt F)) (e : Fin 1000000) (k : Fin 8) (hk : ¬ k.val < 4) :
    attrK (F := F) x1 x2 (ix2 e k)
      = x1 (ix2 (nodeRow (x2 (ix2 (1 : Fin 2) e))) (⟨k.val - 4, by have := k.isLt; omega⟩ : Fin 4)) := by
  unfold attrK
  refine (concatenate_pair_apply_right (t := Cert.KernelIdeal.S1000000x8) (s₁ := Cert.KernelIdeal.S1000000x4)
    (s₂ := Cert.KernelIdeal.S1000000x4) (1 : Fin 2) _ _ Cert.KernelIdeal.Facts₀.concatenates_S1000000x4_S1000000x4_S1000000x8_d1
    (ix2 e k) rfl rfl (ix2 e (⟨k.val - 4, by have := k.isLt; omega⟩ : Fin 4)) (fun b => match b with
      | ⟨0, _⟩ => fun _ => rfl
      | ⟨1, _⟩ => fun h => absurd rfl h) (by show k.val - 4 + 4 = k.val; omega)).trans ?_
  refine (Cert.Lib.gather_rows Cert.KernelIdeal.gather_S50000x4_S1000000x1_S1000000x4_1_0_n_n_0_1_14 rfl rfl rfl rfl rfl
    x1 (starts1 (F := F) x2) e (⟨k.val - 4, by have := k.isLt; omega⟩ : Fin 4) (by decide)).trans ?_
  exact congrArg (fun v => x1 (ix2 (rowOf v) (⟨k.val - 4, by have := k.isLt; omega⟩ : Fin 4))) (starts1_apply x2 e)

end Kernel

section Reference
open Cert.ReferenceIdeal.Read
variable {F : FTy → Type} [FloatOps F]

/-- The reference's start column at (q, 0): the wrapped (q mod 2, q / 2) entry of the edge-index table. -/
theorem refStart_apply (x2 : (⟨Cert.KernelIdeal.S2x1000000, .i32⟩ : BufTy).Contents (Elt F)) (q : Fin 2000000) :
    val_main_v36 (F := F) x2 (ix2 q (0 : Fin 1))
      = wrapNode (x2 (ix2 (⟨q.val % 2, by omega⟩ : Fin 2) (⟨q.val / 2, by have := q.isLt; omega⟩ : Fin 1000000))) := by
  rw [val_main_v36_apply, val_main_v35_apply, val_main_v32_apply, val_main_v34_apply, val_main_v31_apply,
    val_main_v33_apply, val_main_c_apply, val_main_c_10_apply, val_main_v30_apply, val_main_v29_apply]
  have hidx : idx_main_v29 (idx_main_v30 (idx_main_v36 (ix2 q (0 : Fin 1))))
      = ix2 (⟨q.val % 2, by omega⟩ : Fin 2) (⟨q.val / 2, by have := q.isLt; omega⟩ : Fin 1000000) := by
    funext a
    match a with
    | ⟨0, _⟩ => rfl
    | ⟨1, _⟩ => rfl
  rw [hidx]
  rfl

/-- The reference's attribute array at (e, k): the table's row for the edge's node number k / 4, column k mod 4. -/
theorem refAttr_apply (x1 : (⟨Cert.KernelIdeal.S50000x4, .f32⟩ : BufTy).Contents (Elt F))
    (x2 : (⟨Cert.KernelIdeal.S2x1000000, .i32⟩ : BufTy).Contents (Elt F)) (e : Fin 1000000) (k : Fin 8) :
    val_main_v38 (F := F) x1 x2 (ix2 e k)
      = x1 (ix2 (nodeRow (x2 (ix2 (⟨((e.val * 8 + k.val) / 4) % 2, by omega⟩ : Fin 2)
            (⟨((e.val * 8 + k.val) / 4) / 2, by have := e.isLt; have := k.isLt; omega⟩ : Fin 1000000))))
          (⟨(e.val * 8 + k.val) % 4, by omega⟩ : Fin 4)) := by
  have hidx : idx_main_v38 (ix2 e k)
      = ix2 (⟨(e.val * 8 + k.val) / 4, by have := e.isLt; have := k.isLt; omega⟩ : Fin 2000000)
          (⟨(e.val * 8 + k.val) % 4, by omega⟩ : Fin 4) := by
    funext a
    match a with
    | ⟨0, _⟩ => rfl
    | ⟨1, _⟩ => rfl
  rw [val_main_v38_apply, hidx]
  unfold val_main_v37
  refine (Cert.Lib.gather_rows Cert.ReferenceIdeal.gather_S50000x4_S2000000x1_S2000000x4_1_0_n_n_0_1_14 rfl rfl rfl rfl rfl
    x1 (val_main_v36 (F := F) x2)
    (⟨(e.val * 8 + k.val) / 4, by have := e.isLt; have := k.isLt; omega⟩ : Fin 2000000)
    (⟨(e.val * 8 + k.val) % 4, by omega⟩ : Fin 4) (by decide)).trans ?_
  exact congrArg (fun v => x1 (ix2 (rowOf v) (⟨(e.val * 8 + k.val) % 4, by omega⟩ : Fin 4))) (refStart_apply x2 _)

end Reference

/-- The kernel program's attribute array (two gathers side by side) and the reference's (one gather at the interleaved
    index list, re-laid as rows of eight) hold the same entries. -/
theorem attrK_eq {F : FTy → Type} [FloatOps F] (x1 : (⟨Cert.KernelIdeal.S50000x4, .f32⟩ : BufTy).Contents (Elt F))
    (x2 : (⟨Cert.KernelIdeal.S2x1000000, .i32⟩ : BufTy).Contents (Elt F)) (e : Fin 1000000) (k : Fin 8) :
    attrK (F := F) x1 x2 (ix2 e k) = Cert.ReferenceIdeal.Read.val_main_v38 (F := F) x1 x2 (ix2 e k) := by
  have he := e.isLt
  have hk8 := k.isLt
  rw [refAttr_apply]
  by_cases hk : k.val < 4
  · rw [attrK_left x1 x2 e k hk]
    have h1 : (⟨((e.val * 8 + k.val) / 4) % 2, by omega⟩ : Fin 2) = 0 := Fin.ext (by show ((e.val * 8 + k.val) / 4) % 2 = 0; omega)
    have h2 : (⟨((e.val * 8 + k.val) / 4) / 2, by omega⟩ : Fin 1000000) = e := Fin.ext (by show ((e.val * 8 + k.val) / 4) / 2 = e.val; omega)
    have h3 : (⟨(e.val * 8 + k.val) % 4, by omega⟩ : Fin 4) = ⟨k.val, hk⟩ := Fin.ext (by show (e.val * 8 + k.val) % 4 = k.val; omega)
    rw [h1, h2, h3]
  · rw [attrK_right x1 x2 e k hk]
    have h1 : (⟨((e.val * 8 + k.val) / 4) % 2, by omega⟩ : Fin 2) = 1 := Fin.ext (by show ((e.val * 8 + k.val) / 4) % 2 = 1; omega)
    have h2 : (⟨((e.val * 8 + k.val) / 4) / 2, by omega⟩ : Fin 1000000) = e := Fin.ext (by show ((e.val * 8 + k.val) / 4) / 2 = e.val; omega)
    have h3 : (⟨(e.val * 8 + k.val) % 4, by omega⟩ : Fin 4) = ⟨k.val - 4, by omega⟩ := Fin.ext (by show (e.val * 8 + k.val) % 4 = k.val - 4; omega)
    rw [h1, h2, h3]

end Cert.KernelIdeal.Results
end
-- ==== Proof.RefMlpRow.lean ====
/-
  The reference's edge feature array, read one row at a time.

  Row `e` of the feature array is the three-layer network of `Cert.Spec.mlpRow` applied to the smooth cutoff of the
  length of the edge's direction vector and to the edge's eight gathered attributes. The length is the square root of
  the sum of squares (the sum starts from the zero word, which is zero); the cutoff is the two nested selections of the
  specification, with the cube written `(x·x)·x` where the specification has `x·(x·x)`; the first layer's contraction
  runs over the nine columns of the joined array, column 0 being the cutoff and columns 1 to 8 the attributes, so it
  splits into the cutoff's term and the sum over the attributes; the other two layers are contractions over the rows of
  their weight matrices with the bias added along the row.
-/
import proofs.«421568_j9552007266521_3_alg».proof.Proof.Gen.KernelIdeal.Frame
import proofs.«421568_j9552007266521_3_alg».proof.Proof.Gen.ReferenceIdeal.Read
import proofs.«421568_j9552007266521_3_alg».proof.Proof.RowSpec
import Idealize.ShloMosaic.Lib.ValueIdx

noncomputable section
open Idealize.ShloMosaic Idealize.ShloMosaic.ValueIdx

namespace Cert.ReferenceIdeal.RowValue
open Cert.ReferenceIdeal Cert.ReferenceIdeal.Read Cert.ReferenceIdeal.Gen

/-! ### The index maps at a row -/

/-- The summand index of the length's sum at row `e` is `(e, k)`. -/
theorem idx_norm (e : Fin 1000000) (k : Fin 3) :
    idx_main_call0_v1 (idx_main_call0_v2 (ix2 e (0 : Fin 1))) k = ix2 e k := by
  funext a; match a with | ⟨0, _⟩ => rfl | ⟨1, _⟩ => rfl

theorem lidx40 (e : Fin 1000000) (j : Fin 32) (k : Fin 9) : lidx_main_v40 (ix2 e j) k = ix2 e k := by
  funext a; match a with | ⟨0, _⟩ => rfl | ⟨1, _⟩ => rfl
theorem ridx40 (e : Fin 1000000) (j : Fin 32) (k : Fin 9) : ridx_main_v40 (ix2 e j) k = ix2 k j := by
  funext a; match a with | ⟨0, _⟩ => rfl | ⟨1, _⟩ => rfl
theorem bias42 (e : Fin 1000000) (j : Fin 32) : idx_main_v41 (idx_main_v42 (ix2 e j)) = ix1 j := by
  funext a; match a with | ⟨0, _⟩ => rfl

theorem lidx45 (e : Fin 1000000) (j : Fin 64) (k : Fin 32) : lidx_main_v45 (ix2 e j) k = ix2 e k := by
  funext a; match a with | ⟨0, _⟩ => rfl | ⟨1, _⟩ => rfl
theorem ridx45 (e : Fin 1000000) (j : Fin 64) (k : Fin 32) : ridx_main_v45 (ix2 e j) k = ix2 k j := by
  funext a; match a with | ⟨0, _⟩ => rfl | ⟨1, _⟩ => rfl
theorem bias47 (e : Fin 1000000) (j : Fin 64) : idx_main_v46 (idx_main_v47 (ix2 e j)) = ix1 j := by
  funext a; match a with | ⟨0, _⟩ => rfl

theorem lidx50 (e : Fin 1000000) (j : Fin 64) (k : Fin 64) : lidx_main_v50 (ix2 e j) k = ix2 e k := by
  funext a; match a with | ⟨0, _⟩ => rfl | ⟨1, _⟩ => rfl
theorem ridx50 (e : Fin 1000000) (j : Fin 64) (k : Fin 64) : ridx_main_v50 (ix2 e j) k = ix2 k j := by
  funext a; match a with | ⟨0, _⟩ => rfl | ⟨1, _⟩ => rfl
theorem bias52 (e : Fin 1000000) (j : Fin 64) : idx_main_v51 (idx_main_v52 (ix2 e j)) = ix1 j := by
  funext a; match a with | ⟨0, _⟩ => rfl

/-! ### The length and its cutoff -/

/-- The length column at row `e` is the length of row `e` of the direction array. -/
theorem val_main_v0_row (x0 : (⟨S1000000x3, .f32⟩ : BufTy).Contents (Elt Ideal)) (e : Fin 1000000) :
    val_main_v0 (F := Ideal) x0 (ix2 e (0 : Fin 1)) = Cert.Spec.rOf fun k => x0 (ix2 e k) := by
  rw [val_main_v0_apply, val_main_call0_v2_apply, val_main_call0_v1_apply, val_main_call0_cst_apply]
  simp only [val_main_call0_v0_apply, idx_norm, Ideal.hostUnary_sqrt_def, Ideal.ofBits_def, Ideal.mulf_def,
    Ideal.ofBits_zero_f32, zero_add]
  rfl

/-! The constant columns are their words. -/
theorem val_main_v1_word (i : S1000000x1.Idx) : val_main_v1 (F := Ideal) i = Ideal.ofBits .f32 0x40C00000#32 := by
  rw [val_main_v1_apply, val_main_cst_apply]; rfl
theorem val_main_v3_word (i : S1000000x1.Idx) : val_main_v3 (F := Ideal) i = Ideal.ofBits .f32 0xC0400000#32 := by
  rw [val_main_v3_apply, val_main_cst_0_apply]; rfl
theorem val_main_v5_word (i : S1000000x1.Idx) : val_main_v5 (F := Ideal) i = Ideal.ofBits .f32 0x3F800000#32 := by
  rw [val_main_v5_apply, val_main_cst_1_apply]; rfl
theorem val_main_v9_word (i : S1000000x1.Idx) : val_main_v9 (F := Ideal) i = Ideal.ofBits .f32 0x40C00000#32 := by
  rw [val_main_v9_apply, val_main_cst_2_apply]; rfl
theorem val_main_v11_word (i : S1000000x1.Idx) : val_main_v11 (F := Ideal) i = Ideal.ofBits .f32 0xC1700000#32 := by
  rw [val_main_v11_apply, val_main_cst_3_apply]; rfl
theorem val_main_v14_word (i : S1000000x1.Idx) : val_main_v14 (F := Ideal) i = Ideal.ofBits .f32 0x41200000#32 := by
  rw [val_main_v14_apply, val_main_cst_4_apply]; rfl
theorem val_main_v17_word (i : S1000000x1.Idx) : val_main_v17 (F := Ideal) i = Ideal.ofBits .f32 0x3F800000#32 := by
  rw [val_main_v17_apply, val_main_cst_5_apply]; rfl
theorem val_main_v20_word (i : S1000000x1.Idx) : val_main_v20 (F := Ideal) i = Ideal.ofBits .f32 0x40400000#32 := by
  rw [val_main_v20_apply, val_main_cst_6_apply]; rfl
theorem val_main_v22_word (i : S1000000x1.Idx) : val_main_v22 (F := Ideal) i = Ideal.ofBits .f32 0x3F800000#32 := by
  rw [val_main_v22_apply, val_main_cst_7_apply]; rfl
theorem val_main_v24_word (i : S1000000x1.Idx) : val_main_v24 (F := Ideal) i = Ideal.ofBits .f32 0x40C00000#32 := by
  rw [val_main_v24_apply, val_main_cst_8_apply]; rfl
theorem val_main_v26_word (i : S1000000x1.Idx) : val_main_v26 (F := Ideal) i = Ideal.ofBits .f32 0x00000000#32 := by
  rw [val_main_v26_apply, val_main_cst_9_apply]; rfl

/-- The taper's variable `x = (r − 6)/(−3)`. -/
theorem val_main_v4_eq (x0 : (⟨S1000000x3, .f32⟩ : BufTy).Contents (Elt Ideal)) (i : S1000000x1.Idx) :
    val_main_v4 (F := Ideal) x0 i = Ideal.div (val_main_v0 (F := Ideal) x0 i - Ideal.ofBits .f32 0x40C00000#32) (Ideal.ofBits .f32 0xC0400000#32) := by
  rw [val_main_v4_apply, val_main_v2_apply, val_main_v1_word, val_main_v3_word]; rfl

/-- The taper's quadratic factor `10 + x·(−15 + 6·x)`. -/
theorem val_main_v15_eq (x0 : (⟨S1000000x3, .f32⟩ : BufTy).Contents (Elt Ideal)) (i : S1000000x1.Idx) :
    val_main_v15 (F := Ideal) x0 i = Ideal.ofBits .f32 0x41200000#32 + val_main_v4 (F := Ideal) x0 i * (Ideal.ofBits .f32 0xC1700000#32 + Ideal.ofBits .f32 0x40C00000#32 * val_main_v4 (F := Ideal) x0 i) := by
  rw [val_main_v15_apply, val_main_v13_apply, val_main_v12_apply, val_main_v10_apply, val_main_v14_word, val_main_v11_word,
    val_main_v9_word]; rfl

/-- The taper `(1/r)·((x·x)·x·(10 + x·(−15 + 6·x)) + 1)`, the cube as the reference multiplies it. -/
theorem val_main_v19_eq (x0 : (⟨S1000000x3, .f32⟩ : BufTy).Contents (Elt Ideal)) (i : S1000000x1.Idx) :
    val_main_v19 (F := Ideal) x0 i
      = Ideal.div (Ideal.ofBits .f32 0x3F800000#32) (val_main_v0 (F := Ideal) x0 i) * (val_main_v4 (F := Ideal) x0 i * val_main_v4 (F := Ideal) x0 i * val_main_v4 (F := Ideal) x0 i * val_main_v15 (F := Ideal) x0 i + Ideal.ofBits .f32 0x3F800000#32) := by
  rw [val_main_v19_apply, val_main_v6_apply, val_main_v18_apply, val_main_v16_apply, val_main_v8_apply, val_main_v7_apply,
    val_main_v5_word, val_main_v17_word]; rfl

/-- The taper of the specification has the cube as `x·(x·x)`. -/
theorem taper_eq (r : EReal) :
    Ideal.div (Ideal.ofBits .f32 0x3F800000#32) r * (Ideal.div (r - Ideal.ofBits .f32 0x40C00000#32) (Ideal.ofBits .f32 0xC0400000#32) * Ideal.div (r - Ideal.ofBits .f32 0x40C00000#32) (Ideal.ofBits .f32 0xC0400000#32) * Ideal.div (r - Ideal.ofBits .f32 0x40C00000#32) (Ideal.ofBits .f32 0xC0400000#32) *
        (Ideal.ofBits .f32 0x41200000#32 + Ideal.div (r - Ideal.ofBits .f32 0x40C00000#32) (Ideal.ofBits .f32 0xC0400000#32) * (Ideal.ofBits .f32 0xC1700000#32 + Ideal.ofBits .f32 0x40C00000#32 * Ideal.div (r - Ideal.ofBits .f32 0x40C00000#32) (Ideal.ofBits .f32 0xC0400000#32))) + Ideal.ofBits .f32 0x3F800000#32)
      = Cert.Spec.taper r := by
  unfold Cert.Spec.taper
  rw [mul_comm (Ideal.div (r - Ideal.ofBits .f32 0x40C00000#32) (Ideal.ofBits .f32 0xC0400000#32) * Ideal.div (r - Ideal.ofBits .f32 0x40C00000#32) (Ideal.ofBits .f32 0xC0400000#32)) (Ideal.div (r - Ideal.ofBits .f32 0x40C00000#32) (Ideal.ofBits .f32 0xC0400000#32))]

/-- The cutoff column is the smooth cutoff of the length column, entry by entry. -/
theorem val_main_v28_smooth (x0 : (⟨S1000000x3, .f32⟩ : BufTy).Contents (Elt Ideal)) (i : S1000000x1.Idx) :
    val_main_v28 (F := Ideal) x0 i = Cert.Spec.smooth (val_main_v0 (F := Ideal) x0 i) := by
  rw [val_main_v28_apply, val_main_v27_apply, val_main_v21_apply, val_main_v23_apply, val_main_v25_apply, val_main_v19_eq,
    val_main_v15_eq, val_main_v4_eq, val_main_v20_word, val_main_v22_word, val_main_v24_word, val_main_v26_word, taper_eq]
  rfl

theorem val_main_v28_row (x0 : (⟨S1000000x3, .f32⟩ : BufTy).Contents (Elt Ideal)) (e : Fin 1000000) :
    val_main_v28 (F := Ideal) x0 (ix2 e (0 : Fin 1)) = Cert.Spec.smooth (Cert.Spec.rOf fun k => x0 (ix2 e k)) := by
  rw [val_main_v28_smooth, val_main_v0_row]

/-! ### The joined array: column 0 is the cutoff, columns 1 to 8 the attributes -/

theorem val_main_v39_left (x0 : (⟨S1000000x3, .f32⟩ : BufTy).Contents (Elt Ideal)) (x1 : (⟨S50000x4, .f32⟩ : BufTy).Contents (Elt Ideal)) (x2 : (⟨S2x1000000, .i32⟩ : BufTy).Contents (Elt Ideal)) (e : Fin 1000000) :
    val_main_v39 (F := Ideal) x0 x1 x2 (ix2 e (0 : Fin 9)) = val_main_v28 (F := Ideal) x0 (ix2 e (0 : Fin 1)) :=
  concatenate_pair_apply_left (t := S1000000x9) (s₁ := S1000000x1) (s₂ := S1000000x8) 1 (val_main_v28 (F := Ideal) x0)
    (val_main_v38 (F := Ideal) x1 x2) concatenates_S1000000x1_S1000000x8_S1000000x9_d1 (ix2 e (0 : Fin 9)) rfl
    (ix2 e (0 : Fin 1)) (fun b => by
      match b with
      | ⟨0, _⟩ => rfl
      | ⟨1, _⟩ => rfl)

theorem val_main_v39_right (x0 : (⟨S1000000x3, .f32⟩ : BufTy).Contents (Elt Ideal)) (x1 : (⟨S50000x4, .f32⟩ : BufTy).Contents (Elt Ideal)) (x2 : (⟨S2x1000000, .i32⟩ : BufTy).Contents (Elt Ideal)) (e : Fin 1000000) (k : Fin 8) :
    val_main_v39 (F := Ideal) x0 x1 x2 (ix2 e k.succ) = val_main_v38 (F := Ideal) x1 x2 (ix2 e k) :=
  concatenate_pair_apply_right (t := S1000000x9) (s₁ := S1000000x1) (s₂ := S1000000x8) 1 (val_main_v28 (F := Ideal) x0)
    (val_main_v38 (F := Ideal) x1 x2) concatenates_S1000000x1_S1000000x8_S1000000x9_d1 (ix2 e k.succ) rfl rfl (ix2 e k)
    (fun b hb => by
      match b with
      | ⟨0, _⟩ => rfl
      | ⟨1, _⟩ => exact absurd rfl hb)
    (Fin.val_succ k).symm

/-! ### The three layers -/

theorem val_main_v44_row (x0 : (⟨S1000000x3, .f32⟩ : BufTy).Contents (Elt Ideal)) (x1 : (⟨S50000x4, .f32⟩ : BufTy).Contents (Elt Ideal)) (x2 : (⟨S2x1000000, .i32⟩ : BufTy).Contents (Elt Ideal)) (x4 : (⟨S9x32, .f32⟩ : BufTy).Contents (Elt Ideal)) (x5 : (⟨S32, .f32⟩ : BufTy).Contents (Elt Ideal)) (e : Fin 1000000) (j : Fin 32) :
    val_main_v44 (F := Ideal) x0 x1 x2 x4 x5 (ix2 e j) = Cert.Spec.first (Cert.Spec.smooth (Cert.Spec.rOf fun k => x0 (ix2 e k))) (fun k => val_main_v38 (F := Ideal) x1 x2 (ix2 e k)) (fun j => x4 (ix2 0 j)) (fun k j => x4 (ix2 k.succ j)) (fun j => x5 (ix1 j)) j := by
  rw [val_main_v44_apply, val_main_v43_apply, val_main_v40_apply, val_main_v42_apply, val_main_v41_apply]
  simp only [lidx40, ridx40, bias42, Ideal.hostUnary_tanh_def, Ideal.addf_def]
  rw [Fin.sum_univ_succ]
  simp only [val_main_v39_right]
  rw [val_main_v39_left, val_main_v28_row]
  rfl

theorem val_main_v49_row (x0 : (⟨S1000000x3, .f32⟩ : BufTy).Contents (Elt Ideal)) (x1 : (⟨S50000x4, .f32⟩ : BufTy).Contents (Elt Ideal)) (x2 : (⟨S2x1000000, .i32⟩ : BufTy).Contents (Elt Ideal)) (x4 : (⟨S9x32, .f32⟩ : BufTy).Contents (Elt Ideal)) (x5 : (⟨S32, .f32⟩ : BufTy).Contents (Elt Ideal)) (x6 : (⟨S32x64, .f32⟩ : BufTy).Contents (Elt Ideal)) (x7 : (⟨S64, .f32⟩ : BufTy).Contents (Elt Ideal)) (e : Fin 1000000) (j : Fin 64) :
    val_main_v49 (F := Ideal) x0 x1 x2 x4 x5 x6 x7 (ix2 e j) = Cert.Spec.layer (Cert.Spec.first (Cert.Spec.smooth (Cert.Spec.rOf fun k => x0 (ix2 e k))) (fun k => val_main_v38 (F := Ideal) x1 x2 (ix2 e k)) (fun j => x4 (ix2 0 j)) (fun k j => x4 (ix2 k.succ j)) (fun j => x5 (ix1 j))) (fun k j => x6 (ix2 k j)) (fun j => x7 (ix1 j)) j := by
  rw [val_main_v49_apply, val_main_v48_apply, val_main_v45_apply, val_main_v47_apply, val_main_v46_apply]
  simp only [lidx45, ridx45, bias47, val_main_v44_row, Ideal.hostUnary_tanh_def, Ideal.addf_def]
  rfl

theorem val_main_v54_row (x0 : (⟨S1000000x3, .f32⟩ : BufTy).Contents (Elt Ideal)) (x1 : (⟨S50000x4, .f32⟩ : BufTy).Contents (Elt Ideal)) (x2 : (⟨S2x1000000, .i32⟩ : BufTy).Contents (Elt Ideal)) (x4 : (⟨S9x32, .f32⟩ : BufTy).Contents (Elt Ideal)) (x5 : (⟨S32, .f32⟩ : BufTy).Contents (Elt Ideal)) (x6 : (⟨S32x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (e : Fin 1000000) (j : Fin 64) :
    val_main_v54 (F := Ideal) x0 x1 x2 x4 x5 x6 x7 x8 x9 (ix2 e j)
      = Cert.Spec.layer (Cert.Spec.layer (Cert.Spec.first (Cert.Spec.smooth (Cert.Spec.rOf fun k => x0 (ix2 e k))) (fun k => val_main_v38 (F := Ideal) x1 x2 (ix2 e k)) (fun j => x4 (ix2 0 j)) (fun k j => x4 (ix2 k.succ j)) (fun j => x5 (ix1 j))) (fun k j => x6 (ix2 k j)) (fun j => x7 (ix1 j))) (fun k j => x8 (ix2 k j)) (fun j => x9 (ix1 j)) j := by
  rw [val_main_v54_apply, val_main_v53_apply, val_main_v50_apply, val_main_v52_apply, val_main_v51_apply]
  simp only [lidx50, ridx50, bias52, val_main_v49_row, Ideal.hostUnary_tanh_def, Ideal.addf_def]
  rfl

/-- Row `e` of the reference's feature array is the specification's network on the edge's cutoff and attributes. -/
theorem val_main_v55_row (x0 : (⟨S1000000x3, .f32⟩ : BufTy).Contents (Elt Ideal)) (x1 : (⟨S50000x4, .f32⟩ : BufTy).Contents (Elt Ideal))
    (x2 : (⟨S2x1000000, .i32⟩ : BufTy).Contents (Elt Ideal)) (x4 : (⟨S9x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (e : Fin 1000000) (q : Fin 64) :
    val_main_v55 (F := Ideal) x0 x1 x2 x4 x5 x6 x7 x8 x9 (ix2 e q)
      = Cert.Spec.mlpRow (Cert.Spec.smooth (Cert.Spec.rOf fun k => x0 (ix2 e k))) (fun k => val_main_v38 (F := Ideal) x1 x2 (ix2 e k))
          (fun j => x4 (ix2 0 j)) (fun k j => x4 (ix2 k.succ j)) (fun j => x5 (ix1 j)) (fun k j => x6 (ix2 k j)) (fun j => x7 (ix1 j))
          (fun k j => x8 (ix2 k j)) (fun j => x9 (ix1 j)) q := by
  rw [val_main_v55_apply, val_main_v54_row, val_main_v49_row]
  rfl

end Cert.ReferenceIdeal.RowValue
end
-- ==== Proof.RefGram.lean ====
/-
  The reference's descriptor stage read one row at a time.

  Stage 74 is the batched product of the 64×3 aggregate with its own transpose (batch axis the node, contraction over the
  three coordinates); stage 75 keeps its first eight columns; stage 76 lays the 64×8 block out row-major as 512 entries.
  Entry `q` of node `n` is therefore the inner product of rows `q / 8` and `q % 8` of the node's aggregate: the
  specification's `gram`.
-/
import proofs.«421568_j9552007266521_3_alg».proof.Proof.Gen.ReferenceIdeal.Read
import proofs.«421568_j9552007266521_3_alg».proof.Proof.RowSpec
import Idealize.ShloMosaic.Lib.ValueIdx

noncomputable section
open Idealize.ShloMosaic Idealize.ShloMosaic.ValueIdx

namespace Cert.ReferenceIdeal.RowValue
open Cert.ReferenceIdeal Cert.ReferenceIdeal.Read

/-- Through the reshape and the slice, entry `(n, q)` reads the product at `(n, q / 8, q % 8)`: its left factor is row
    `q / 8` of node `n`, -/
theorem gram_left (n : Fin 50000) (q : Fin 512) (k : Fin 3) :
    lidx_main_v74 (idx_main_v75 (idx_main_v76 (ix2 n q))) k
      = ix3 n (⟨q.val / 8, by have := q.isLt; omega⟩ : Fin 64) k := by
  funext a
  match a with
  | ⟨0, _⟩ => exact Fin.ext (by show (n.val * 512 + q.val) / 512 = n.val; have := q.isLt; omega)
  | ⟨1, _⟩ => exact Fin.ext (by show (n.val * 512 + q.val) / 8 % 64 = q.val / 8; have := q.isLt; omega)
  | ⟨2, _⟩ => rfl

/-- and its right factor is row `q % 8`. -/
theorem gram_right (n : Fin 50000) (q : Fin 512) (k : Fin 3) :
    ridx_main_v74 (idx_main_v75 (idx_main_v76 (ix2 n q))) k
      = ix3 n (⟨q.val % 8, by have := q.isLt; omega⟩ : Fin 64) k := by
  funext a
  match a with
  | ⟨0, _⟩ => exact Fin.ext (by show (n.val * 512 + q.val) / 512 = n.val; have := q.isLt; omega)
  | ⟨1, _⟩ => exact Fin.ext (by show (n.val * 512 + q.val) % 8 = q.val % 8; have := q.isLt; omega)
  | ⟨2, _⟩ => rfl

/-- The reference's descriptor row is the specification's `gram` of the node's aggregate. -/
theorem val_main_v76_row (x0 : (⟨S1000000x3, .f32⟩ : BufTy).Contents (Elt Ideal)) (x1 : (⟨S50000x4, .f32⟩ : BufTy).Contents (Elt Ideal))
    (x2 : (⟨S2x1000000, .i32⟩ : BufTy).Contents (Elt Ideal)) (x4 : (⟨S9x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (n : Fin 50000) (q : Fin 512) :
    val_main_v76 (F := Ideal) x0 x1 x2 x4 x5 x6 x7 x8 x9 (ix2 n q)
      = Cert.Spec.gram (fun d k => val_main_v73 (F := Ideal) x0 x1 x2 x4 x5 x6 x7 x8 x9 (ix3 n d k)) q := by
  rw [val_main_v76_apply, val_main_v75_apply, val_main_v74_apply]
  generalize val_main_v73 (F := Ideal) x0 x1 x2 x4 x5 x6 x7 x8 x9 = y
  unfold Cert.Spec.gram
  refine Finset.sum_congr rfl fun k _ => ?_
  rw [gram_left, gram_right]

end Cert.ReferenceIdeal.RowValue
end
-- ==== Proof.Bridge.lean ====
/-
  The kernel program's two results as the reference's staged functions of the argument arrays.

  The kernel program runs host operations, a first region, host operations, a second region and host operations; the
  reference is host operations only. Stage by stage the arrays agree: the attribute array (two gathers side by side
  against one gather at the interleaved index list), the feature array (each row the same three-layer network of the same
  radial weight and attributes: the reference's first matrix product over nine columns is the kernel's product of the
  radial weight with the matrix's first row plus its product of the eight attributes with the other rows), the aggregate
  array (the same scatter-mean of the feature array on both sides), the descriptor array (each row the same inner products:
  the kernel multiplies the rows with the first eight rows, the reference multiplies all pairs of rows and keeps the first
  eight columns) and the pair sums (the same two gathers of the descriptor array on both sides).
-/
import proofs.«421568_j9552007266521_3_alg».proof.Proof.Boundary
import proofs.«421568_j9552007266521_3_alg».proof.Proof.EdgeArray
import proofs.«421568_j9552007266521_3_alg».proof.Proof.NodeArray
import proofs.«421568_j9552007266521_3_alg».proof.Proof.AttrGather
import proofs.«421568_j9552007266521_3_alg».proof.Proof.RefMlpRow
import proofs.«421568_j9552007266521_3_alg».proof.Proof.RefGram
import Idealize.ShloMosaic.Lib.ValueLayout

set_option maxRecDepth 16384

noncomputable section

/-! ## The two host stretches after the first region are the reference's stages -/

namespace Cert.ReferenceIdeal.RowValue

open Cert.ReferenceIdeal Cert.ReferenceIdeal.Read Idealize.ShloMosaic

variable {F : FTy → Type} [FloatOps F]

/-- The reference's aggregate array is the scatter-mean, as the kernel program computes it, of its feature array. -/
theorem val_main_v73_eq_aggr (x0 : (⟨S1000000x3, .f32⟩ : BufTy).Contents (Elt F)) (x1 : (⟨S50000x4, .f32⟩ : BufTy).Contents (Elt F))
    (x2 : (⟨S2x1000000, .i32⟩ : BufTy).Contents (Elt F)) (x4 : (⟨S9x32, .f32⟩ : BufTy).Contents (Elt F))
    (x5 : (⟨S32, .f32⟩ : BufTy).Contents (Elt F)) (x6 : (⟨S32x64, .f32⟩ : BufTy).Contents (Elt F))
    (x7 : (⟨S64, .f32⟩ : BufTy).Contents (Elt F)) (x8 : (⟨S64x64, .f32⟩ : BufTy).Contents (Elt F))
    (x9 : (⟨S64, .f32⟩ : BufTy).Contents (Elt F)) :
    val_main_v73 (F := F) x0 x1 x2 x4 x5 x6 x7 x8 x9
      = Cert.KernelIdeal.Results.aggrK (F := F) (val_main_v55 (F := F) x0 x1 x2 x4 x5 x6 x7 x8 x9) x0 x2 := rfl

/-- The reference's pair sums are the pair sums, as the kernel program computes them, of its descriptor array. -/
theorem val_main_v95_eq_edge (x0 : (⟨S1000000x3, .f32⟩ : BufTy).Contents (Elt F)) (x1 : (⟨S50000x4, .f32⟩ : BufTy).Contents (Elt F))
    (x2 : (⟨S2x1000000, .i32⟩ : BufTy).Contents (Elt F)) (x3 : (⟨S2x200000, .i32⟩ : BufTy).Contents (Elt F)) (x4 : (⟨S9x32, .f32⟩ : BufTy).Contents (Elt F))
    (x5 : (⟨S32, .f32⟩ : BufTy).Contents (Elt F)) (x6 : (⟨S32x64, .f32⟩ : BufTy).Contents (Elt F))
    (x7 : (⟨S64, .f32⟩ : BufTy).Contents (Elt F)) (x8 : (⟨S64x64, .f32⟩ : BufTy).Contents (Elt F))
    (x9 : (⟨S64, .f32⟩ : BufTy).Contents (Elt F)) :
    val_main_v95 (F := F) x0 x1 x2 x3 x4 x5 x6 x7 x8 x9
      = Cert.KernelIdeal.Results.edgeK (F := F) (val_main_v76 (F := F) x0 x1 x2 x4 x5 x6 x7 x8 x9) x3 := rfl

end Cert.ReferenceIdeal.RowValue

namespace Cert.KernelIdeal.Results

open Cert.KernelIdeal Cert.KernelIdeal.Gen
open Idealize.ShloMosaic Idealize.ShloMosaic.TcCoe Idealize.SL.Sem Idealize.ShloMosaic.ValueIdx
open Cert.ReferenceIdeal.Read (val_main_v38 val_main_v55 val_main_v73 val_main_v76 val_main_v95)

/-! ## The first weight matrix's two pieces, read at an index -/

/-- The radial weight's weights are row 0 of the first weight matrix. -/
theorem w1sK_apply (x4 : (⟨S9x32, .f32⟩ : BufTy).Contents (Elt Ideal)) (j : Fin 32) :
    w1sK (F := Ideal) x4 (ix1 j) = x4 (ix2 (0 : Fin 9) j) := by
  unfold w1sK
  refine (shapeCast_apply _ _ (ix1 j) (ix2 (0 : Fin 1) j) (by
    rw [Shape.rowMajor_val_two, Shape.rowMajor_val_one]
    show (0 : Fin 1).val * 32 + j.val = j.val
    simp)).trans ?_
  exact slice2_axis0_apply 0 x4 _ (0 : Fin 1) j (0 : Fin 9) rfl

/-- The attributes' weights are rows 1 to 8 of the first weight matrix. -/
theorem w1aK_apply (x4 : (⟨S9x32, .f32⟩ : BufTy).Contents (Elt Ideal)) (k : Fin 8) (j : Fin 32) :
    w1aK (F := Ideal) x4 (ix2 k j) = x4 (ix2 k.succ j) := by
  unfold w1aK
  exact slice2_axis0_apply 1 x4 _ k j k.succ (by rw [Fin.val_succ]; omega)

variable (m : (ℓ : Loc nD τ sig) → Buf (Elt Ideal) ℓ) (ρ : Dev nD → PrngReg)

/-! ## The arrays, stage by stage -/

/-- The first region's output array is the reference's feature array of the arguments. -/
theorem featArray (c : Dev nD) : (dat0 (V1 m ρ) c).arrAt 9 cfg0.N = val_main_v55 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [edgeArray (V1 m ρ) c]
  show edgeRows (W1 m ρ c (Proc.devRef .tc main_arg0)) (W1 m ρ c (Proc.devRef .tc main_v18)) (W1 m ρ c (Proc.devRef .tc main_v19))
    (W1 m ρ c (Proc.devRef .tc main_v21)) (W1 m ρ c (Proc.devRef .tc main_arg5)) (W1 m ρ c (Proc.devRef .tc main_arg6))
    (W1 m ρ c (Proc.devRef .tc main_arg7)) (W1 m ρ c (Proc.devRef .tc main_arg8)) (W1 m ρ c (Proc.devRef .tc main_arg9)) = _
  rw [W1_main_arg0, W1_main_v18, W1_main_v19, W1_main_v21, W1_main_arg5, W1_main_arg6, W1_main_arg7, W1_main_arg8, W1_main_arg9]
  funext i
  obtain ⟨e, q, rfl⟩ : ∃ (e : Fin 1000000) (q : Fin 64), i = ix2 e q := ⟨i 0, i 1, eq_ix2 i⟩
  refine Eq.trans ?_ (Cert.ReferenceIdeal.RowValue.val_main_v55_row _ _ _ _ _ _ _ _ _ e q).symm
  show Cert.Spec.mlpRow _ (fun k => attrK (F := Ideal) _ _ (ix2 e k)) (fun j => w1sK (F := Ideal) _ (ix1 j))
    (fun k j => w1aK (F := Ideal) _ (ix2 k j)) _ _ _ _ _ q = _
  simp only [attrK_eq, w1sK_apply, w1aK_apply]

/-- The second region's output array is the reference's descriptor array of the arguments. -/
theorem descArray (c : Dev nD) : (dat1 (V5 m ρ) c).arrAt 1 cfg1.N = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [nodeArray (V5 m ρ) c]
  show nodeRows (W5 m ρ c (Proc.devRef .tc main_v40)) = _
  rw [W5_main_v40, featArray, ← Cert.ReferenceIdeal.RowValue.val_main_v73_eq_aggr]
  funext i
  obtain ⟨n, q, rfl⟩ : ∃ (n : Fin 50000) (q : Fin 512), i = ix2 n q := ⟨i 0, i 1, eq_ix2 i⟩
  exact (Cert.ReferenceIdeal.RowValue.val_main_v76_row _ _ _ _ _ _ _ _ _ n q).symm

/-- The last boundary's pair-sum array is the reference's pair-sum array of the arguments. -/
theorem pairArray (c : Dev nD) : W7 m ρ c (Proc.devRef .tc main_v60) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W7_main_v60, descArray, ← Cert.ReferenceIdeal.RowValue.val_main_v95_eq_edge]

/-! ## The run -/

/-- Every weakly fair execution of the kernel program terminates, nothing faulting, with its two results at the
    reference's staged functions of the argument arrays and the argument arrays as launched. -/
theorem run : θ_run defs (onTc (τ := τ) (main (F := Ideal))) ⟨m, fun _ => 0, ρ⟩ (fun r => ∀ c : Dev nD,
      r.2.mem ((c.tc : Thread nD τ).loc main_v41) = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v60) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans ((W7_main_v41 m ρ c).trans (descArray m ρ c)), (h c).2.1.trans (pairArray m ρ c), (h c).2.2⟩)
    (run_results m ρ)

end Cert.KernelIdeal.Results

end
-- ==== Proof.lean ====
/-
  The kernel program and the reference compute the same two arrays on the extended reals, and all three programs run to
  the end with their arguments unchanged.

  Both programs take the edges' direction vectors, the nodes' attributes, the edge list, a list of node pairs and the
  weights of a three-layer network. For every edge they form the radial weight of the vector's length (a smooth cutoff),
  gather the attributes of the edge's two nodes, and apply the network; the edges' feature rows, spread over the vectors'
  three coordinates, are averaged into each edge's target node; a node's descriptor is the table of inner products of
  its 64×3 aggregate's rows with its first eight rows; a pair's descriptor is the sum of its two nodes'. The kernel
  program does the network and the inner products in two tiled regions, one block of edges or nodes per grid point,
  and splits the first layer's product into the radial weight's term and the attributes' matrix product; the reference
  does everything with whole-array operations. The two differ only in how sums are grouped and how indices are laid
  out, so the equality needs no hypothesis on the inputs: the finiteness precondition is not used.

  The frames of the two kernel programs are the generated ones; the reference's frame and value are its generated run;
  the kernel program's value is read off the run of its segments (Proof/KernelRun.lean, Proof/Boundary.lean), each
  region's output array being one function of its operand arrays (Proof/EdgeArray.lean, Proof/NodeArray.lean), and
  Proof/Bridge.lean identifies the stages of the two programs.
-/
import proofs.«421568_j9552007266521_3_alg».proof.Defs
import proofs.«421568_j9552007266521_3_alg».proof.Proof.Gen.Kernel
import proofs.«421568_j9552007266521_3_alg».proof.Proof.Gen.Kernel.Skeleton
import proofs.«421568_j9552007266521_3_alg».proof.Proof.Gen.Kernel.Launch
import proofs.«421568_j9552007266521_3_alg».proof.Proof.Gen.Kernel.Points
import proofs.«421568_j9552007266521_3_alg».proof.Proof.Gen.Kernel.Frame
import proofs.«421568_j9552007266521_3_alg».proof.Proof.Gen.KernelIdeal
import proofs.«421568_j9552007266521_3_alg».proof.Proof.Gen.KernelIdeal.Skeleton
import proofs.«421568_j9552007266521_3_alg».proof.Proof.Gen.KernelIdeal.Launch
import proofs.«421568_j9552007266521_3_alg».proof.Proof.Gen.KernelIdeal.Points
import proofs.«421568_j9552007266521_3_alg».proof.Proof.Gen.KernelIdeal.Frame
import proofs.«421568_j9552007266521_3_alg».proof.Proof.Gen.ReferenceIdeal
import proofs.«421568_j9552007266521_3_alg».proof.Proof.Gen.Pre_finite_inputs
import Idealize.ShloMosaic.Adequacy
import Idealize.ShloMosaic.Init
import proofs.«421568_j9552007266521_3_alg».proof.Proof.Gen.ReferenceIdeal.Read
import proofs.«421568_j9552007266521_3_alg».proof.Proof.Bridge

noncomputable section

namespace Cert.Proof

open Idealize.ShloMosaic Idealize.SL.Sem

/-- The word-level kernel program runs to the end with its arguments unchanged: the generated frame. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs to the end with its arguments unchanged: its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same two result arrays: the reference's
    staged functions of the arguments, which the kernel program's run reaches (`Cert.KernelIdeal.Results.run`) and the
    reference's run states. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v76_eq, h0, h1, h2, h4, h5, h6, h7, h8, h9]
  · obtain ⟨h0, h1, h2, h3, h4, h5, h6, h7, h8, h9⟩ := hagree c
    rw [Cert.ReferenceIdeal.Read.val_main_v95_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
